-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x512 .f32
  ∧ IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S16x8x128 : Shape := ⟨3, ![16, 8, 128]⟩
abbrev S512 : Shape := ⟨1, ![512]⟩
abbrev S1x8x128 : Shape := ⟨3, ![1, 8, 128]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩
abbrev S1 : Shape := ⟨1, ![1]⟩
abbrev S1x1x1 : Shape := ⟨3, ![1, 1, 1]⟩
abbrev S8x128 : Shape := ⟨2, ![8, 128]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S16x8x128, .f32⟩
  | .hbm, ⟨3, _⟩ => ⟨S16x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S512, .f32⟩
  | .local _ .vmem, ⟨1, _⟩ => ⟨S512, .f32⟩
  | .local _ .vmem, ⟨2, _⟩ => ⟨S512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | .local _ .vmem, ⟨12, _⟩ => ⟨S1x1, .f32⟩
  | .local _ .vmem, ⟨13, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_cst_4 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![16, 16], ![false, false]⟩

def k0_cond4 (i : grid0.Coords) : BitVec 1 :=
  let arg1 : BitVec 32 := BitVec.ofNat 32 (i 1).val
  let c15_i32 : BitVec 32 := 15#32
  let v9 : BitVec 1 := Scalar.cmpi .eq arg1 c15_i32
  let v10 : BitVec 32 := Scalar.extui v9
  let c0_i32_3 : BitVec 32 := 0#32
  let v11 : BitVec 1 := Scalar.cmpi .ne v10 c0_i32_3
  v11

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512_S512_0 : ∀ a, (![0] : Fin 1 → Nat) a + S512.size a ≤ S512.size a
  h_S512 : 0 < S512.numel
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  natLt_1_32 : 1 < 32
  shapeCasts_S512x512_S1x512x512 : S512x512.ShapeCasts S1x512x512
  reduces_S1x512x512_S1 : S1x512x512.Reduces [1, 2] S1
  shapeCasts_S1_S1x1x1 : S1.ShapeCasts S1x1x1
  inpos_S1x1x1_p0_0_0 : ∀ a, (![0, 0, 0] : Fin 3 → Nat) a < S1x1x1.size a
  reduces_S1x512_S1 : S1x512.Reduces [1] S1
  shapeCasts_S1_S1x1 : S1.ShapeCasts S1x1
  inpos_S1x1_p0_0 : ∀ a, (![0, 0] : Fin 2 → Nat) a < S1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512.size a ≤ S8192.size a
  hwx0_0 : ∀ i : grid0.Coords, EltTy.bits .f32 = 32 ∨ (Rect.block (s := S8192) S512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S8192.size a
  hwx0_1 : ∀ i : grid0.Coords, EltTy.bits .f32 = 32 ∨ (Rect.block (s := S8192) S512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S8192.size a
  hwx0_2 : ∀ i : grid0.Coords, EltTy.bits .f32 = 32 ∨ (Rect.block (s := S8192) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S8192.size a
  hwx0_3 : ∀ i : grid0.Coords, EltTy.bits .f32 = 32 ∨ (Rect.block (s := S8192) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S16x8x128.size a
  hwx0_4 : ∀ i : grid0.Coords, EltTy.bits .f32 = 32 ∨ (Rect.block (s := S16x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S16x8x128.size a
  hwx0_5 : ∀ i : grid0.Coords, EltTy.bits .f32 = 32 ∨ (Rect.block (s := S16x8x128) S1x8x128.size (cc0_transform_5 i) (hinb0_5 i)).WholeWords (EltTy.packing .f32)

variable [Facts₀]

abbrev win0_0 : Pipeline.Window sig grid0 :=
  Pipeline.Window.ofSpec (Memref.whole main_arg0) S512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond4 i == 1#1) | 5 => fun i => !(k0_cond4 i == 1#1) | ⟨_ + 6, h⟩ => absurd h (Nat.not_lt.2 (Nat.le_add_left _ _))

class Facts : Prop extends Facts₀ where

variable [Facts]
-- ==== ReferenceIdeal.lean ====
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .f32⟩
  | .hbm, ⟨3, _⟩ => ⟨S8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x1, .f32⟩
  | .hbm, ⟨25, _⟩ => ⟨S1x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192x8192, .f32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i32⟩
  | .hbm, ⟨42, _⟩ => ⟨S8192x8192, .i1⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S8192x8192, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_4 : Ref sig .tc := ⟨.hbm, 32, rfl⟩
abbrev main_v25 : Ref sig .tc := ⟨.hbm, 33, rfl⟩
abbrev main_v26 : Ref sig .tc := ⟨.hbm, 34, rfl⟩
abbrev main_cst_5 : Ref sig .tc := ⟨.hbm, 35, rfl⟩
abbrev main_v27 : Ref sig .tc := ⟨.hbm, 36, rfl⟩
abbrev main_call0_v0 : Ref sig .tc := ⟨.hbm, 37, rfl⟩
abbrev main_call0_c : Ref sig .tc := ⟨.hbm, 38, rfl⟩
abbrev main_call0_v1 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_cst : Ref sig .tc := ⟨.hbm, 43, rfl⟩
abbrev main_call0_v5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]

class Facts₀ : Prop where
  reducesTo_S8192_S_d0 : S8192.ReducesTo [0] S_
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_

variable [Facts₀]

class Facts : Prop extends Facts₀ where

variable [Facts]
-- ==== Proof.KIData.lean ====
/-
  The proof data of the one pipeline, stated once for any float instance.

  The grid is 16 × 16, walked row by row: point t is (i, j) = (t / 16, t % 16).  The kernel keeps two one-word
  accumulators in scratch between points.  At a point the rank accumulator is reset if j = 0, takes the masked
  sum of the diagonal tile if i = j and the plain sum of the tile if j > i; the squared-error accumulator is reset
  if j = 0 and takes the row block's squared error if i = j.  At j = 15 both are laid at entry (0, 0) of the
  row block's output tile (zero elsewhere).  `stepR` / `stepM` say what one point does to the accumulators,
  `accR` / `accM` what they hold after the first n points.
-/
import proofs.«169254_j59803124630166_1_alg».proof.Proof.Gen.KernelIdeal.Launch
import proofs.«169254_j59803124630166_1_alg».proof.Proof.Gen.KernelIdeal.Skeleton
import proofs.«169254_j59803124630166_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers as the region finds them -/

/-- Core `c`'s buffer contents at the region's entry: the launch contents (no host operation precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem V_main_arg0 (c : Dev nD) : V m c main_arg0 = m ((c : Thread nD τ).loc main_arg0) := rfl
theorem V_main_arg1 (c : Dev nD) : V m c main_arg1 = m ((c : Thread nD τ).loc main_arg1) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal type: rows i of the first input, rows j of the first input,
    rows i of the second, rows j of the second. -/
abbrev xI (c : Dev nD) (t : Fin cfg0.N) : Vec F S512 .f32 := iblk m c 0 t
abbrev xJ (c : Dev nD) (t : Fin cfg0.N) : Vec F S512 .f32 := iblk m c 1 t
abbrev yI (c : Dev nD) (t : Fin cfg0.N) : Vec F S512 .f32 := iblk m c 2 t
abbrev yJ (c : Dev nD) (t : Fin cfg0.N) : Vec F S512 .f32 := iblk m c 3 t

/-! ## The body's four conditions, from the grid coordinates -/

/-- j = 0: both accumulators are reset. -/
abbrev c1 (i : grid0.Coords) : Prop := (Scalar.cmpi .ne (Scalar.extui (Scalar.cmpi .eq (BitVec.ofNat 32 (i 1).val) 0#32)) 0#32) = 1#1
/-- i = j: the diagonal tile. -/
abbrev c2 (i : grid0.Coords) : Prop := (Scalar.cmpi .ne (Scalar.extui (Scalar.cmpi .eq (BitVec.ofNat 32 (i 0).val) (BitVec.ofNat 32 (i 1).val))) 0#32) = 1#1
/-- j > i: a tile strictly above the diagonal. -/
abbrev c3 (i : grid0.Coords) : Prop := (Scalar.cmpi .ne (Scalar.extui (Scalar.cmpi .sgt (BitVec.ofNat 32 (i 1).val) (BitVec.ofNat 32 (i 0).val))) 0#32) = 1#1
/-- j = 15: the row block's last point, where the output tiles are stored. -/
abbrev c4 (i : grid0.Coords) : Prop := k0_cond4 i = 1#1

theorem hc1 : ∀ t : Fin cfg0.N, c1 (grid0.coords t) ↔ t.val % 16 = 0 :=
  (by decide +kernel : ∀ t : Fin grid0.N, c1 (grid0.coords t) ↔ t.val % 16 = 0)
theorem hc2 : ∀ t : Fin cfg0.N, c2 (grid0.coords t) ↔ t.val / 16 = t.val % 16 :=
  (by decide +kernel : ∀ t : Fin grid0.N, c2 (grid0.coords t) ↔ t.val / 16 = t.val % 16)
theorem hc3 : ∀ t : Fin cfg0.N, c3 (grid0.coords t) ↔ t.val / 16 < t.val % 16 :=
  (by decide +kernel : ∀ t : Fin grid0.N, c3 (grid0.coords t) ↔ t.val / 16 < t.val % 16)
theorem hc4 : ∀ t : Fin cfg0.N, c4 (grid0.coords t) ↔ t.val % 16 = 15 :=
  (by decide +kernel : ∀ t : Fin grid0.N, c4 (grid0.coords t) ↔ t.val % 16 = 15)

/-! ## One point's effect on the accumulators -/

/-- The rank accumulator after a point at coordinates `i` that found it at `a`, the four input blocks being `x0 … x3`. -/
def stepR (i : grid0.Coords) (x0 x1 x2 x3 : Vec F S512 .f32) (a : Vec F S1x1 .f32) : Vec F S1x1 .f32 :=
  let a1 : Vec F S1x1 .f32 := if c1 i then k0_pay1 (F := F) else a
  let a2 : Vec F S1x1 .f32 := if c2 i then k0_pay3 (k0_pay8 x0 x1 x2 x3 a1) else a1
  if c3 i then k0_pay9 x0 x1 x2 x3 a2 else a2

/-- The squared-error accumulator after a point at coordinates `i` that found it at `b`. -/
def stepM (i : grid0.Coords) (x0 x2 : Vec F S512 .f32) (b : Vec F S1x1 .f32) : Vec F S1x1 .f32 :=
  let b1 : Vec F S1x1 .f32 := if c1 i then k0_pay2 (F := F) else b
  if c2 i then k0_pay4 x0 x2 b1 else b1

/-- Where j = 0 the point resets the accumulator first: what it found does not matter. -/
theorem stepR_reset (i : grid0.Coords) (h : c1 i) (x0 x1 x2 x3 : Vec F S512 .f32) (a a' : Vec F S1x1 .f32) :
    stepR i x0 x1 x2 x3 a = stepR i x0 x1 x2 x3 a' := by
  unfold stepR; simp only [if_pos h]
theorem stepM_reset (i : grid0.Coords) (h : c1 i) (x0 x2 : Vec F S512 .f32) (b b' : Vec F S1x1 .f32) :
    stepM i x0 x2 b = stepM i x0 x2 b' := by
  unfold stepM; simp only [if_pos h]

/-! ## The accumulators point by point -/

/-- The rank accumulator after the first `n` points (before any: a placeholder, which point 0 overwrites). -/
def accR (c : Dev nD) : ℕ → Vec F S1x1 .f32
  | 0 => k0_pay1 (F := F)
  | n + 1 => if h : n < cfg0.N then stepR (grid0.coords ⟨n, h⟩) (xI m c ⟨n, h⟩) (xJ m c ⟨n, h⟩) (yI m c ⟨n, h⟩) (yJ m c ⟨n, h⟩) (accR c n) else accR c n

/-- The squared-error accumulator after the first `n` points. -/
def accM (c : Dev nD) : ℕ → Vec F S1x1 .f32
  | 0 => k0_pay2 (F := F)
  | n + 1 => if h : n < cfg0.N then stepM (grid0.coords ⟨n, h⟩) (xI m c ⟨n, h⟩) (yI m c ⟨n, h⟩) (accM c n) else accM c n

theorem accR_succ (c : Dev nD) (t : Fin cfg0.N) :
    accR m c (t.val + 1) = stepR (grid0.coords t) (xI m c t) (xJ m c t) (yI m c t) (yJ m c t) (accR m c t.val) := by
  obtain ⟨n, hn⟩ := t
  exact dif_pos hn
theorem accM_succ (c : Dev nD) (t : Fin cfg0.N) :
    accM m c (t.val + 1) = stepM (grid0.coords t) (xI m c t) (yI m c t) (accM m c t.val) := by
  obtain ⟨n, hn⟩ := t
  exact dif_pos hn

/-! ## The scratch memrefs and the region invariant -/

abbrev scR : Memref sig .tc .vmem S1x1 .f32 := Memref.whole cc0_scratch0
abbrev scM : Memref sig .tc .vmem S1x1 .f32 := Memref.whole cc0_scratch1

/-- What the launch hands the body beside the windows: the two scratch words at anything and the generator register. -/
theorem PhiA0_eq (c : Dev nD) :
    (Pipeline.ΦA spec0 c : sProp 𝕄)
      = iprop(iprop((∃ d, owns (c : Thread nD τ) scR fullShare d) ∗ (∃ d, owns (c : Thread nD τ) scM fullShare d)) ∗ (∃ r, prngReg c r)) := by
  unfold Pipeline.ΦA; rw [scopedRest0_eq]; simp only [scR, scM, owns_whole]; try rfl

/-- The invariant before point `n`: before the first point the scratch words hold anything; afterwards the
    accumulators' values after the first `n` points. -/
def PhiS (c : Dev nD) : ℕ → sProp 𝕄
  | 0 => Pipeline.ΦA spec0 c
  | n + 1 => iprop(iprop(owns (c : Thread nD τ) scR fullShare (accR m c (n + 1)) ∗ owns (c : Thread nD τ) scM fullShare (accM m c (n + 1))) ∗ (∃ r, prngReg c r))

theorem PhiS_zero (c : Dev nD) : PhiS m c 0 = Pipeline.ΦA spec0 c := rfl
theorem PhiS_succ (c : Dev nD) (n : ℕ) :
    PhiS m c (n + 1) = iprop(iprop(owns (c : Thread nD τ) scR fullShare (accR m c (n + 1)) ∗ owns (c : Thread nD τ) scM fullShare (accM m c (n + 1))) ∗ (∃ r, prngReg c r)) := rfl
theorem PhiS_pos (c : Dev nD) (n : ℕ) (hz : n ≠ 0) :
    PhiS m c n = iprop(iprop(owns (c : Thread nD τ) scR fullShare (accR m c n) ∗ owns (c : Thread nD τ) scM fullShare (accM m c n)) ∗ (∃ r, prngReg c r)) := by
  cases n with
  | zero => exact absurd rfl hz
  | succ n => rfl

/-! ## The proof data -/

/-- The two windows on one argument array each hold half of it. -/
def shareOf : Fin cfg0.W → PosShare TreeShare
  | ⟨0, _⟩ => fullShare.left
  | ⟨1, _⟩ => fullShare.right
  | ⟨2, _⟩ => fullShare.left
  | ⟨3, _⟩ => fullShare.right
  | _ => fullShare

/-- The proof data of the pipeline on core `c`: the arrays as the region finds them; after the body each input's
    buffer at its block, and (where it matters: at j = 15) the two output tiles at the accumulators laid at
    entry (0, 0); the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay6 (accR m c (t.val + 1))
    | ⟨5, _⟩ => k0_pay7 (accM m c (t.val + 1))
  Φ t := PhiS m c t.val
  q := shareOf
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay6 (accR m c (t.val + 1)) := by dsimp only [dats]
theorem after0_5 (c : Dev nD) (t : Fin cfg0.N) : (dats m 0 c).after 5 t = k0_pay7 (accM m c (t.val + 1)) := by dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

end Cert.KernelIdeal.Hand

end
-- ==== Proof.KIBodyRun.lean ====
/-
  The kernel body run once on any staging memrefs, for any float instance: from the four input blocks, the two
  output tiles and the two accumulators it leaves the inputs as they were, the accumulators advanced by one point
  (`stepR`, `stepM`) and, at the row block's last point, the output tiles at the accumulators laid at entry (0, 0).

  Every access of the body is a load or a store of a whole buffer.  So a buffer the body never stores into reads at
  the end what it read at the start; one it stores into reads the payload of its last store; and a value loaded
  after a store is that store's payload.  The four conditions depend on the grid coordinates alone; in each of their
  sixteen combinations the stores that happen compose the payloads exactly as `stepR` and `stepM` do, the tiles
  being stored (from the accumulators as they then stand) just where `c4` holds.
-/
import proofs.«169254_j59803124630166_1_alg».proof.Proof.KIData
import Idealize.ShloMosaic.Lib.Tactic
import Idealize.ShloMosaic.Lib.WholeRead

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape loads and stores

The rectangle at zero offsets of a shape's own sizes is the whole shape: an index read through it is the index itself. -/

section Whole

variable {sig' : RefSig} {Val : EltTy → Type} {κ : Kind} {sp : Space} {S : Shape} {e : EltTy}

/-- A load through the whole-shape rectangle of a whole memref held at the contents that read `X` reads `X`. -/
theorem readAt_zero_unread {m : Memref sig' κ sp S e} (h : m.IsWhole) (X : S.Idx → Val e) {off : Fin S.rank → Nat}
    (ho : off = fun _ => 0) (inb : ∀ a, off a + S.size a ≤ S.size a) :
    View.readAt Val m.view (Rect.unit off S.size inb).toLoadRect (h.unread X) = X := by
  subst ho; funext x
  rw [Memref.IsWhole.readAt_unread h]
  show X ((Rect.whole S).emb x) = X x
  rw [Rect.emb_whole_apply]

/-- A store through the whole-shape rectangle, made last, reads back as its payload whatever was stored before. -/
theorem read_writes_cons_zero (v : View sig' κ sp S e) (f : v.ty.Contents Val) {off : Fin S.rank → Nat}
    (ho : off = fun _ => 0) (inb : ∀ a, off a + S.size a ≤ S.size a) (w : S.Idx → Val e) (L : List (View.Piece Val S e)) :
    v.read Val (v.writes Val f (⟨Rect.unit off S.size inb, w⟩ :: L)) = w := by
  subst ho; funext y
  have e := View.read_writes_cons_emb v f (Rect.whole S) w L y
  rwa [Rect.emb_whole_apply] at e

/-- A load through the whole-shape rectangle after such a store reads the store's payload. -/
theorem readCov_cons_zero [∀ e, Nonempty (Val e)] (v : View sig' κ sp S e) {off : Fin S.rank → Nat}
    (ho : off = fun _ => 0) (inb : ∀ a, off a + S.size a ≤ S.size a) (w : S.Idx → Val e) (L : List (View.Piece Val S e)) :
    v.readCov (⟨Rect.unit off S.size inb, w⟩ :: L) (Rect.unit off S.size inb).toLoadRect = w := by
  funext x
  unfold View.readCov
  rw [View.readAt_apply, read_writes_cons_zero v _ ho inb w L]
  subst ho
  show w ((Rect.whole S).emb x) = w x
  rw [Rect.emb_whole_apply]

end Whole

theorem off1_zero : (![0] : Fin S512.rank → Nat) = fun _ => 0 := by funext a; fin_cases a; rfl
theorem off2_zero : (![0, 0] : Fin S1x1.rank → Nat) = fun _ => 0 := by funext a; fin_cases a <;> rfl
theorem off3_zero : (![0, 0, 0] : Fin S1x8x128.rank → Nat) = fun _ => 0 := by funext a; fin_cases a <;> rfl

section AtShapes

variable {sig' : RefSig} {Val : EltTy → Type} {κ : Kind} {sp : Space} {e : EltTy}

/-! The same at the three shapes the body touches (an input block, an accumulator word, an output tile), the
offsets and sizes written out as the body's accesses have them. -/

theorem readAt_S512 {m : Memref sig' κ sp S512 e} (h : m.IsWhole) (X : S512.Idx → Val e)
    (inb : ∀ a, (![0] : Fin S512.rank → Nat) a + (![512] : Fin S512.rank → Nat) a ≤ S512.size a) :
    View.readAt Val m.view (Rect.unit (s := S512) ![0] ![512] inb).toLoadRect (h.unread X) = X :=
  readAt_zero_unread h X off1_zero inb
theorem readAt_S1x1 {m : Memref sig' κ sp S1x1 e} (h : m.IsWhole) (X : S1x1.Idx → Val e)
    (inb : ∀ a, (![0, 0] : Fin S1x1.rank → Nat) a + (![1, 1] : Fin S1x1.rank → Nat) a ≤ S1x1.size a) :
    View.readAt Val m.view (Rect.unit (s := S1x1) ![0, 0] ![1, 1] inb).toLoadRect (h.unread X) = X :=
  readAt_zero_unread h X off2_zero inb
theorem read_writes_S1x1 (v : View sig' κ sp S1x1 e) (f : v.ty.Contents Val)
    (inb : ∀ a, (![0, 0] : Fin S1x1.rank → Nat) a + (![1, 1] : Fin S1x1.rank → Nat) a ≤ S1x1.size a)
    (w : S1x1.Idx → Val e) (L : List (View.Piece Val S1x1 e)) :
    v.read Val (v.writes Val f (⟨Rect.unit (s := S1x1) ![0, 0] ![1, 1] inb, w⟩ :: L)) = w :=
  read_writes_cons_zero v f off2_zero inb w L
theorem read_writes_S1x8x128 (v : View sig' κ sp S1x8x128 e) (f : v.ty.Contents Val)
    (inb : ∀ a, (![0, 0, 0] : Fin S1x8x128.rank → Nat) a + (![1, 8, 128] : Fin S1x8x128.rank → Nat) a ≤ S1x8x128.size a)
    (w : S1x8x128.Idx → Val e) (L : List (View.Piece Val S1x8x128 e)) :
    v.read Val (v.writes Val f (⟨Rect.unit (s := S1x8x128) ![0, 0, 0] ![1, 8, 128] inb, w⟩ :: L)) = w :=
  read_writes_cons_zero v f off3_zero inb w L
theorem readCov_S1x1 [∀ e, Nonempty (Val e)] (v : View sig' κ sp S1x1 e)
    (inb : ∀ a, (![0, 0] : Fin S1x1.rank → Nat) a + (![1, 1] : Fin S1x1.rank → Nat) a ≤ S1x1.size a)
    (w : S1x1.Idx → Val e) (L : List (View.Piece Val S1x1 e)) :
    v.readCov (⟨Rect.unit (s := S1x1) ![0, 0] ![1, 1] inb, w⟩ :: L) (Rect.unit (s := S1x1) ![0, 0] ![1, 1] inb).toLoadRect = w :=
  readCov_cons_zero v off2_zero inb w L

end AtShapes

/-! ## Handing a buffer back -/

/-- What a buffer reads when the body ends: an untouched buffer reads what it read; a stored one reads its last
    payload, each value the body loaded on the way being the contents it found or the payload stored just before. -/
macro "own_read" : tactic => `(tactic|
  (sl_unfold_run_names
   simp only [Memref.IsWhole.read_unread, read_writes_S1x1, read_writes_S1x8x128, readCov_S1x1, readAt_S512, readAt_S1x1]))

/-- The buffer held under `H` is owned at what it reads. -/
macro "own_back " H:ident : tactic => `(tactic|
  (iexists _; isplitr; rotate_left; iexact $H; ipureintro; own_read))

/-- The conditionals of `stepR`, `stepM` and of the tiles' contents on one condition, from either verdict on it. -/
macro "decide_if " h:ident : tactic => `(tactic| first | simp only [if_pos $h] | simp only [if_neg $h])

/-! ## The run -/

set_option maxHeartbeats 4000000 in
/-- The body at coordinates `i` on any whole memrefs: the four input blocks, the two output tiles, the two
    accumulator words.  By cases on the four conditions: in each the accumulators' steps and the tiles' contents
    reduce to the payload terms of the stores that happen, the body runs with every conditional decided, and each
    buffer is handed back at what it then reads. -/
theorem body_run_at (c : Dev nD) (i : grid0.Coords)
    (a2 : Memref sig .tc .vmem S512 .f32) (h2 : a2.IsWhole) (a3 : Memref sig .tc .vmem S512 .f32) (h3 : a3.IsWhole)
    (a4 : Memref sig .tc .vmem S512 .f32) (h4 : a4.IsWhole) (a5 : Memref sig .tc .vmem S512 .f32) (h5 : a5.IsWhole)
    (a6 : Memref sig .tc .vmem S1x8x128 .f32) (h6 : a6.IsWhole) (a7 : Memref sig .tc .vmem S1x8x128 .f32) (h7 : a7.IsWhole)
    (a8 : Memref sig .tc .vmem S1x1 .f32) (h8 : a8.IsWhole) (a9 : Memref sig .tc .vmem S1x1 .f32) (h9 : a9.IsWhole)
    (x0 x1 x2 x3 : Vec F S512 .f32) (o4 o5 : Vec F S1x8x128 .f32) (a b : Vec F S1x1 .f32) :
    (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare o4 ∗ owns (c : Thread nD τ) a7 fullShare o5
        ∗ owns (c : Thread nD τ) a8 fullShare a ∗ owns (c : Thread nD τ) a9 fullShare b) : sProp 𝕄)
      ⊢ wp frame (wpE (defs₀ (F := F)) Variants.none c none) Set.univ
          (cc0__kernel i a2 h2 a3 h3 a4 h4 a5 h5 a6 h6 a7 h7 a8 h8 a9 h9)
          (fun _ => iprop(owns (c : Thread nD τ) a2 fullShare x0 ∗ owns (c : Thread nD τ) a3 fullShare x1 ∗ owns (c : Thread nD τ) a4 fullShare x2
            ∗ owns (c : Thread nD τ) a5 fullShare x3
            ∗ owns (c : Thread nD τ) a6 fullShare (if c4 i then k0_pay6 (stepR i x0 x1 x2 x3 a) else o4)
            ∗ owns (c : Thread nD τ) a7 fullShare (if c4 i then k0_pay7 (stepM i x0 x2 b) else o5)
            ∗ owns (c : Thread nD τ) a8 fullShare (stepR i x0 x1 x2 x3 a) ∗ owns (c : Thread nD τ) a9 fullShare (stepM i x0 x2 b))) := by
  by_cases hc1 : c1 i <;> by_cases hc2 : c2 i <;> by_cases hc3 : c3 i <;> by_cases hc4 : c4 i <;>
  (simp only [stepR, stepM]
   decide_if hc1; decide_if hc2; decide_if hc3; decide_if hc4
   simp only [cc0__kernel_eq_skeleton]; unfold cc0__kernel_skel
   simp only [k0_part1_eq_skeleton, k0_part2_eq_skeleton]; unfold k0_part1_skel k0_part2_skel
   unfold owns
   iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩
   obtain rfl := h2.eq_unread hf2; obtain rfl := h3.eq_unread hf3; obtain rfl := h4.eq_unread hf4; obtain rfl := h5.eq_unread hf5
   obtain rfl := h6.eq_unread hf6; obtain rfl := h7.eq_unread hf7; obtain rfl := h8.eq_unread hf8; obtain rfl := h9.eq_unread hf9
   sl_exec (disch := first | sl_exact hc1 | sl_exact hc2 | sl_exact hc3 | sl_exact hc4)
   sl_step
   isplitl [H2]; · own_back H2
   isplitl [H3]; · own_back H3
   isplitl [H4]; · own_back H4
   isplitl [H5]; · own_back H5
   isplitl [H6]; · own_back H6
   isplitl [H7]; · own_back H7
   isplitl [H8]; · own_back H8
   own_back H9)

/-- The body at coordinates `i` on staging memrefs `a2 … a7` and the two scratch words. -/
theorem body_run (c : Dev nD) (i : grid0.Coords)
    (a2 : Memref sig .tc .vmem S512 .f32) (h2 : a2.IsWhole) (a3 : Memref sig .tc .vmem S512 .f32) (h3 : a3.IsWhole)
    (a4 : Memref sig .tc .vmem S512 .f32) (h4 : a4.IsWhole) (a5 : Memref sig .tc .vmem S512 .f32) (h5 : a5.IsWhole)
    (a6 : Memref sig .tc .vmem S1x8x128 .f32) (h6 : a6.IsWhole) (a7 : Memref sig .tc .vmem S1x8x128 .f32) (h7 : a7.IsWhole)
    (x0 x1 x2 x3 : Vec F S512 .f32) (o4 o5 : Vec F S1x8x128 .f32) (a b : Vec F S1x1 .f32) :
    (iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare o4 ∗ owns (c : Thread nD τ) a7 fullShare o5
        ∗ owns (c : Thread nD τ) scR fullShare a ∗ owns (c : Thread nD τ) scM fullShare b) : sProp 𝕄)
      ⊢ wp frame (wpE (defs₀ (F := F)) Variants.none c none) Set.univ
          (cc0__kernel i a2 h2 a3 h3 a4 h4 a5 h5 a6 h6 a7 h7 scR (Memref.isWhole_whole _) scM (Memref.isWhole_whole _))
          (fun _ => iprop(owns (c : Thread nD τ) a2 fullShare x0 ∗ owns (c : Thread nD τ) a3 fullShare x1 ∗ owns (c : Thread nD τ) a4 fullShare x2
            ∗ owns (c : Thread nD τ) a5 fullShare x3
            ∗ owns (c : Thread nD τ) a6 fullShare (if c4 i then k0_pay6 (stepR i x0 x1 x2 x3 a) else o4)
            ∗ owns (c : Thread nD τ) a7 fullShare (if c4 i then k0_pay7 (stepM i x0 x2 b) else o5)
            ∗ owns (c : Thread nD τ) scR fullShare (stepR i x0 x1 x2 x3 a) ∗ owns (c : Thread nD τ) scM fullShare (stepM i x0 x2 b))) :=
  body_run_at c i a2 h2 a3 h3 a4 h4 a5 h5 a6 h6 a7 h7 scR (Memref.isWhole_whole _) scM (Memref.isWhole_whole _) x0 x1 x2 x3 o4 o5 a b

end Cert.KernelIdeal.Hand

end
-- ==== Proof.KIBody.lean ====
/-
  The body obligation of the pipeline: at every point the body, handed the invariant and each window's current
  staging buffer at what it then holds, runs to the invariant at the next point and each buffer at what the proof
  data says it leaves.  An input's buffer holds its block at every point, fetched there or not; an output tile's
  buffer is stored only at the row block's last point (j = 15) and handed back untouched elsewhere.
-/
import proofs.«169254_j59803124630166_1_alg».proof.Proof.KIBodyRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What an input's buffer holds when the body runs

An input window is never idle and its blocks tile the array, and the body leaves the block where it found it.
So at every point the current buffer holds the block of that point: where the pipeline did not fetch, the block
index has not moved since the point before. -/

theorem before_in0 (c : Dev nD) (t : Fin cfg0.N) (d) : (dats m 0 c).before 0 t d = iblk m c 0 t := by
  have hk : ∀ u, (cfg0.win 0).cut (cfg0.grid.coords u) ((dats m 0 c).after 0 u) = (dats m 0 c).blockOf 0 u := by
    intro u; rw [after0_0]; unfold Dat.blockOf iblk; rw [A_eq]; try rfl
  rw [(dats m 0 c).before_in_eq_fetched 0 rfl (fun _ => rfl) (fun _ _ _ => rfl) hk t d]
  unfold Dat.fetched Dat.blockOf iblk; rw [A_eq]; try rfl

theorem before_in1 (c : Dev nD) (t : Fin cfg0.N) (d) : (dats m 0 c).before 1 t d = iblk m c 1 t := by
  have hk : ∀ u, (cfg0.win 1).cut (cfg0.grid.coords u) ((dats m 0 c).after 1 u) = (dats m 0 c).blockOf 1 u := by
    intro u; rw [after0_1]; unfold Dat.blockOf iblk; rw [A_eq]; try rfl
  rw [(dats m 0 c).before_in_eq_fetched 1 rfl (fun _ => rfl) (fun _ _ _ => rfl) hk t d]
  unfold Dat.fetched Dat.blockOf iblk; rw [A_eq]; try rfl

theorem before_in2 (c : Dev nD) (t : Fin cfg0.N) (d) : (dats m 0 c).before 2 t d = iblk m c 2 t := by
  have hk : ∀ u, (cfg0.win 2).cut (cfg0.grid.coords u) ((dats m 0 c).after 2 u) = (dats m 0 c).blockOf 2 u := by
    intro u; rw [after0_2]; unfold Dat.blockOf iblk; rw [A_eq]; try rfl
  rw [(dats m 0 c).before_in_eq_fetched 2 rfl (fun _ => rfl) (fun _ _ _ => rfl) hk t d]
  unfold Dat.fetched Dat.blockOf iblk; rw [A_eq]; try rfl

theorem before_in3 (c : Dev nD) (t : Fin cfg0.N) (d) : (dats m 0 c).before 3 t d = iblk m c 3 t := by
  have hk : ∀ u, (cfg0.win 3).cut (cfg0.grid.coords u) ((dats m 0 c).after 3 u) = (dats m 0 c).blockOf 3 u := by
    intro u; rw [after0_3]; unfold Dat.blockOf iblk; rw [A_eq]; try rfl
  rw [(dats m 0 c).before_in_eq_fetched 3 rfl (fun _ => rfl) (fun _ _ _ => rfl) hk t d]
  unfold Dat.fetched Dat.blockOf iblk; rw [A_eq]; try rfl

/-! ## Where the output tiles are idle, over the grid

The two output windows are stored under the condition j = 15 only.  Away from j = 15 the configuration calls them
idle and the pipeline does not write them back; at j = 15 they are live. -/

theorem idle_out4 : ∀ t : Fin cfg0.N, ¬ t.val % 16 = 15 → cfg0.idle 4 (grid0.coords t) = true :=
  (by decide +kernel : ∀ t : Fin grid0.N, ¬ t.val % 16 = 15 → idle0 4 (grid0.coords t) = true)
theorem idle_out5 : ∀ t : Fin cfg0.N, ¬ t.val % 16 = 15 → cfg0.idle 5 (grid0.coords t) = true :=
  (by decide +kernel : ∀ t : Fin grid0.N, ¬ t.val % 16 = 15 → idle0 5 (grid0.coords t) = true)
theorem live_out4 : ∀ t : Fin cfg0.N, t.val % 16 = 15 → cfg0.idle 4 (grid0.coords t) = false :=
  (by decide +kernel : ∀ t : Fin grid0.N, t.val % 16 = 15 → idle0 4 (grid0.coords t) = false)
theorem live_out5 : ∀ t : Fin cfg0.N, t.val % 16 = 15 → cfg0.idle 5 (grid0.coords t) = false :=
  (by decide +kernel : ∀ t : Fin grid0.N, t.val % 16 = 15 → idle0 5 (grid0.coords t) = false)

theorem keep_out4 (t : Fin cfg0.N) (h : ¬ t.val % 16 = 15) : (cfg0.win 4).flush t = false :=
  Bool.eq_false_iff.mpr fun hf => h ((flush0_4 t).mp hf)
theorem keep_out5 (t : Fin cfg0.N) (h : ¬ t.val % 16 = 15) : (cfg0.win 5).flush t = false :=
  Bool.eq_false_iff.mpr fun hf => h ((flush0_5 t).mp hf)

/-! ## The current staging memrefs, at their literal types -/

abbrev bf0 (t : Fin cfg0.N) : Memref sig .tc .vmem S512 .f32 := win0_0.stage (cfg0.slots t 0)
abbrev bf1 (t : Fin cfg0.N) : Memref sig .tc .vmem S512 .f32 := win0_1.stage (cfg0.slots t 1)
abbrev bf2 (t : Fin cfg0.N) : Memref sig .tc .vmem S512 .f32 := win0_2.stage (cfg0.slots t 2)
abbrev bf3 (t : Fin cfg0.N) : Memref sig .tc .vmem S512 .f32 := win0_3.stage (cfg0.slots t 3)
abbrev bf4 (t : Fin cfg0.N) : Memref sig .tc .vmem S1x8x128 .f32 := win0_4.stage (cfg0.slots t 4)
abbrev bf5 (t : Fin cfg0.N) : Memref sig .tc .vmem S1x8x128 .f32 := win0_5.stage (cfg0.slots t 5)

/-! ## What the obligation asks of each buffer after the body -/

theorem leaves_in0 (c : Dev nD) (t : Fin cfg0.N) :
    (dats m 0 c).leavesExact 0 t = owns (c : Thread nD τ) (bf0 t) fullShare (xI m c t) := by
  rw [show (dats m 0 c).leavesExact 0 t = owns (c : Thread nD τ) (bf0 t) fullShare ((dats m 0 c).after 0 t) from rfl, after0_0]
theorem leaves_in1 (c : Dev nD) (t : Fin cfg0.N) :
    (dats m 0 c).leavesExact 1 t = owns (c : Thread nD τ) (bf1 t) fullShare (xJ m c t) := by
  rw [show (dats m 0 c).leavesExact 1 t = owns (c : Thread nD τ) (bf1 t) fullShare ((dats m 0 c).after 1 t) from rfl, after0_1]
theorem leaves_in2 (c : Dev nD) (t : Fin cfg0.N) :
    (dats m 0 c).leavesExact 2 t = owns (c : Thread nD τ) (bf2 t) fullShare (yI m c t) := by
  rw [show (dats m 0 c).leavesExact 2 t = owns (c : Thread nD τ) (bf2 t) fullShare ((dats m 0 c).after 2 t) from rfl, after0_2]
theorem leaves_in3 (c : Dev nD) (t : Fin cfg0.N) :
    (dats m 0 c).leavesExact 3 t = owns (c : Thread nD τ) (bf3 t) fullShare (yJ m c t) := by
  rw [show (dats m 0 c).leavesExact 3 t = owns (c : Thread nD τ) (bf3 t) fullShare ((dats m 0 c).after 3 t) from rfl, after0_3]

/-- The rank tile's buffer after the body, whichever kind of point it is: at j = 15 the body stored the
    accumulator laid at entry (0, 0), which is the stated contents; elsewhere the body left what it was handed,
    which is what an idle window is asked to hold. -/
theorem leaves_out4 (c : Dev nD) (t : Fin cfg0.N) (d) :
    owns (c : Thread nD τ) (bf4 t) fullShare
        (if c4 (grid0.coords t) then k0_pay6 (accR m c (t.val + 1)) else (dats m 0 c).before 4 t d)
      ⊢ ((dats m 0 c).leavesExact 4 t : sProp 𝕄) := by
  by_cases h : t.val % 16 = 15
  · rw [if_pos ((hc4 t).mpr h)]
    rw [show (dats m 0 c).leavesExact 4 t = owns (c : Thread nD τ) (bf4 t) fullShare ((dats m 0 c).after 4 t) from by
      unfold Dat.leavesExact; rw [live_out4 t h], after0_4]
  · rw [if_neg (fun h' => h ((hc4 t).mp h')), Dat.leavesExact_idle (dats m 0 c) 4 t (idle_out4 t h) (keep_out4 t h)]
    iintro H; iexists d; iexact H

/-- The same of the squared-error tile's buffer. -/
theorem leaves_out5 (c : Dev nD) (t : Fin cfg0.N) (d) :
    owns (c : Thread nD τ) (bf5 t) fullShare
        (if c4 (grid0.coords t) then k0_pay7 (accM m c (t.val + 1)) else (dats m 0 c).before 5 t d)
      ⊢ ((dats m 0 c).leavesExact 5 t : sProp 𝕄) := by
  by_cases h : t.val % 16 = 15
  · rw [if_pos ((hc4 t).mpr h)]
    rw [show (dats m 0 c).leavesExact 5 t = owns (c : Thread nD τ) (bf5 t) fullShare ((dats m 0 c).after 5 t) from by
      unfold Dat.leavesExact; rw [live_out5 t h], after0_5]
  · rw [if_neg (fun h' => h ((hc4 t).mp h')), Dat.leavesExact_idle (dats m 0 c) 5 t (idle_out5 t h) (keep_out5 t h)]
    iintro H; iexists d; iexact H

/-! ## The invariant opened at a point

Before point t the two scratch words hold the accumulators after the first t points; before the first point
they hold anything.  Either way one step from what they hold gives the accumulators after t + 1 points: the first
point has j = 0, where the step resets before it accumulates. -/

theorem PhiS_open (c : Dev nD) (t : Fin cfg0.N) :
    PhiS m c t.val ⊢ (iprop(∃ a b,
        ⌜stepR (grid0.coords t) (xI m c t) (xJ m c t) (yI m c t) (yJ m c t) a = accR m c (t.val + 1)
          ∧ stepM (grid0.coords t) (xI m c t) (yI m c t) b = accM m c (t.val + 1)⌝
        ∗ owns (c : Thread nD τ) scR fullShare a ∗ owns (c : Thread nD τ) scM fullShare b ∗ (∃ r, prngReg c r)) : sProp 𝕄) := by
  by_cases hz : t.val = 0
  · have hj : c1 (grid0.coords t) := (hc1 t).mpr (by omega)
    rw [show PhiS m c t.val = Pipeline.ΦA spec0 c from by rw [hz, PhiS_zero], PhiA0_eq]
    iintro ⟨⟨⟨%a, HR⟩, ⟨%b, HM⟩⟩, Hg⟩
    iexists a, b
    isplitr
    · ipureintro
      exact ⟨(stepR_reset _ hj _ _ _ _ a (accR m c t.val)).trans (accR_succ m c t).symm,
        (stepM_reset _ hj _ _ b (accM m c t.val)).trans (accM_succ m c t).symm⟩
    isplitl [HR]; · iexact HR
    isplitl [HM]; · iexact HM
    iexact Hg
  · rw [PhiS_pos m c _ hz]
    iintro ⟨⟨HR, HM⟩, Hg⟩
    iexists _, _
    isplitr
    · ipureintro; exact ⟨(accR_succ m c t).symm, (accM_succ m c t).symm⟩
    isplitl [HR]; · iexact HR
    isplitl [HM]; · iexact HM
    iexact Hg

/-! ## The body obligation, at a generic point -/

/-- What the body is handed at point t: the invariant, nothing owed, and the six current buffers. -/
def bodyPre (c : Dev nD) (t : Fin cfg0.N) : sProp 𝕄 :=
  iprop((dats m 0 c).Φ t.castSucc ∗ (dats m 0 c).owesAt () t.castSucc
    ∗ (∃ d, owns (c : Thread nD τ) (bf0 t) fullShare ((dats m 0 c).before 0 t d))
    ∗ (∃ d, owns (c : Thread nD τ) (bf1 t) fullShare ((dats m 0 c).before 1 t d))
    ∗ (∃ d, owns (c : Thread nD τ) (bf2 t) fullShare ((dats m 0 c).before 2 t d))
    ∗ (∃ d, owns (c : Thread nD τ) (bf3 t) fullShare ((dats m 0 c).before 3 t d))
    ∗ (∃ d, owns (c : Thread nD τ) (bf4 t) fullShare ((dats m 0 c).before 4 t d))
    ∗ (∃ d, owns (c : Thread nD τ) (bf5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

set_option maxHeartbeats 1600000 in
/-- The body at any point.  The inputs' buffers hold their blocks; the invariant opened gives the scratch words
    at contents from which one step reaches the accumulators after this point; the one triple of the body applies
    on the point's memrefs; and each buffer it hands back is what the obligation asks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).owesAt () t.succ = (dats m 0 c).owesAt () t.castSucc from rfl]
  rw [Phi_castSucc, Phi_succ, PhiS_succ, leaves_in0, leaves_in1, leaves_in2, leaves_in3]
  iintro ⟨HΦ, Ho, ⟨%d0, H0⟩, ⟨%d1, H1⟩, ⟨%d2, H2⟩, ⟨%d3, H3⟩, ⟨%d4, H4⟩, ⟨%d5, H5⟩⟩
  icases (PhiS_open m c t) $$ HΦ with ⟨%a, %b, %hab, HR, HM, Hg⟩
  iapply (wp_wand_r Idealize.ShloMosaic.frame (wpE (defs₀ (F := F)) Variants.none (c : Thread nD τ) none) Set.univ)
  isplitl [H0 H1 H2 H3 H4 H5 HR HM]
  · iapply (body_run c (grid0.coords t) _ _ _ _ _ _ _ _ _ _ _ _ (xI m c t) (xJ m c t) (yI m c t) (yJ m c t)
      ((dats m 0 c).before 4 t d4) ((dats m 0 c).before 5 t d5) a b)
    isplitl [H0]; · iexact H0
    isplitl [H1]; · iexact H1
    isplitl [H2]; · iexact H2
    isplitl [H3]; · iexact H3
    isplitl [H4]; · iexact H4
    isplitl [H5]; · iexact H5
    isplitl [HR]; · iexact HR
    iexact HM
  · iintro %_ ⟨H0, H1, H2, H3, H4, H5, HR, HM⟩
    rw [hab.1, hab.2]
    isplitl [HR HM Hg]
    · isplitl [HR HM]
      · isplitl [HR]; · iexact HR
        iexact HM
      iexact Hg
    isplitl [Ho]; · iexact Ho
    isplitl [H0]; · iexact H0
    isplitl [H1]; · iexact H1
    isplitl [H2]; · iexact H2
    isplitl [H3]; · iexact H3
    isplitl [H4]; · iapply (leaves_out4 m c t d4); iexact H4
    iapply (leaves_out5 m c t d5); iexact H5

/-- The library's body obligation, at every point. -/
theorem body_obligation (c : Dev nD) : BodyObligation (dats (F := F) m 0 c) (defs₀ (F := F)) Variants.none () Set.univ := by
  intro t
  rw [bigSep_W0, bigSep_W0]
  exact sound_body m c t

/-- What the launch hands the region is the invariant before the first point. -/
theorem hin (c : Dev nD) : (Pipeline.ΦA spec0 c : sProp 𝕄) ⊢ (dats m 0 c).Φ 0 := by
  rw [show (dats m 0 c).Φ 0 = PhiS m c 0 from rfl, PhiS_zero]
  try exact .rfl

/-- After the last point the invariant gives it back: the accumulators' named contents are forgotten. -/
theorem hout (c : Dev nD) : (dats m 0 c).Φ (Fin.last cfg0.N) ⊢ (Pipeline.ΦA spec0 c : sProp 𝕄) := by
  have hN : (Fin.last cfg0.N).val ≠ 0 := by
    rw [Fin.val_last]; have : cfg0.N = 256 := N_0; omega
  rw [show (dats m 0 c).Φ (Fin.last cfg0.N) = PhiS m c (Fin.last cfg0.N).val from rfl, PhiS_pos m c _ hN, PhiA0_eq]
  iintro ⟨⟨HR, HM⟩, Hg⟩
  isplitl [HR HM]
  · isplitl [HR]
    · iexists _; iexact HR
    iexists _; iexact HM
  iexact Hg

end Cert.KernelIdeal.Hand

end
-- ==== Proof.KILaunch.lean ====
/-
  The run of the whole program: the region, then the thirteen host operations that reduce the two output arrays
  to the three scalar results.  Each argument array is handed to the kernel through two windows; each window holds
  a half of it, the halves made at the region's entry and rejoined at its exit.  After the region the two output
  arrays hold what the write-backs left (`Dat.arrAt … N`) and every other buffer what it held before; the host
  operations then run from those contents.
-/
import proofs.«169254_j59803124630166_1_alg».proof.Proof.KIBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at the region's exit: the two output arrays at what the write-backs left, every other buffer
    as the region found it. -/
def Vout (c : Dev nD) : Valuation τ sig (Elt F) :=
  Function.update (Function.update (V0 m c) (Proc.devRef .tc main_v0_0) ((dats m 0 c).arrAt 4 cfg0.N))
    (Proc.devRef .tc main_v0_1) ((dats m 0 c).arrAt 5 cfg0.N)

/-- Core `c`'s buffers at the end: the host operations after the region, run from the exit contents. -/
def Vfin (c : Dev nD) : Valuation τ sig (Elt F) := StableHlo.after hostOps1 (Vout m c)

/-! ## The windows' arrays, one by one -/

theorem arr_image : Finset.univ.image (Pipeline.arrRef spec0) = ([main_arg0, main_arg1, main_v0_0, main_v0_1] : List (Ref sig .tc)).toFinset := by decide

theorem share0 (c : Dev nD) : (dats m 0 c).share 0 = fullShare.left := rfl
theorem share1 (c : Dev nD) : (dats m 0 c).share 1 = fullShare.right := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl
theorem share5 (c : Dev nD) : (dats m 0 c).share 5 = fullShare := rfl

theorem arrays_eq' (c : Dev nD) (G : (w : Fin cfg0.W) → Buf (Elt F) ((cfg0.win w).arr.view.loc (c.tc : Thread nD τ))) :
    ((dats m 0 c).arrays G : sProp 𝕄)
      = bigSep Finset.univ fun w : Fin cfg0.W => (((c.tc : Thread nD τ).loc (Pipeline.arrRef spec0 w)) ↦{(dats m 0 c).share w} G w : sProp 𝕄) := by
  unfold Dat.arrays
  exact bigSep_congr fun w _ => by rw [(arr_whole0 w).set_eq_univ]

/-- The pipeline's arrays at contents `G`, window by window: the two windows on one argument hold a half of it each,
    an output array is held whole. -/
theorem arrays_chain (c : Dev nD) (G : (w : Fin cfg0.W) → Buf (Elt F) ((cfg0.win w).arr.view.loc (c.tc : Thread nD τ))) :
    ((dats m 0 c).arrays G : sProp 𝕄)
      = iprop(((c.tc : Thread nD τ).loc (Pipeline.arrRef spec0 0) ↦{fullShare.left} G 0) ∗ ((c.tc : Thread nD τ).loc (Pipeline.arrRef spec0 1) ↦{fullShare.right} G 1)
          ∗ ((c.tc : Thread nD τ).loc (Pipeline.arrRef spec0 2) ↦{fullShare.left} G 2) ∗ ((c.tc : Thread nD τ).loc (Pipeline.arrRef spec0 3) ↦{fullShare.right} G 3)
          ∗ ((c.tc : Thread nD τ).loc (Pipeline.arrRef spec0 4) ↦{fullShare} G 4) ∗ ((c.tc : Thread nD τ).loc (Pipeline.arrRef spec0 5) ↦{fullShare} G 5)) := by
  rw [arrays_eq', bigSep_W0, share0, share1, share2, share3, share4, share5]

/-- The four distinct buffers behind the six windows, each whole. -/
theorem arrBufs_chain (c : Dev nD) (W : (b : Ref sig .tc) → Buf (Elt F) ((c.tc : Thread nD τ).loc b)) :
    (Pipeline.arrBufs spec0 c W : sProp 𝕄)
      = iprop(((c.tc : Thread nD τ).loc main_arg0 ↦{fullShare} W main_arg0) ∗ ((c.tc : Thread nD τ).loc main_arg1 ↦{fullShare} W main_arg1)
          ∗ ((c.tc : Thread nD τ).loc main_v0_0 ↦{fullShare} W main_v0_0) ∗ ((c.tc : Thread nD τ).loc main_v0_1 ↦{fullShare} W main_v0_1)) := by
  unfold Pipeline.arrBufs
  exact Idealize.SL.BI.bigSep_eq_bigSepL_of_eq _ arr_image (by decide) _

/-- The four buffers whole make the six windows' arrays: each argument is split in two halves. -/
theorem bufs_to_arrays (c : Dev nD) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    (Pipeline.arrBufs spec0 c W : sProp 𝕄) ⊢ (dats m 0 c).arrays G := by
  rw [arrays_chain, arrBufs_chain, hG 0, hG 1, hG 2, hG 3, hG 4, hG 5]
  iintro ⟨H0, H1, H4, H5⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  isplitl [H4]; · iexact H4
  iexact H5

/-- and back: the two halves of an argument rejoin. -/
theorem arrays_to_bufs (c : Dev nD) (W : (b : Ref sig .tc) → Buf (Elt F) ((c.tc : Thread nD τ).loc b))
    (G : (w : Fin cfg0.W) → Buf (Elt F) ((cfg0.win w).arr.view.loc (c.tc : Thread nD τ)))
    (hG : ∀ w, G w = W (Pipeline.arrRef spec0 w)) :
    ((dats m 0 c).arrays G : sProp 𝕄) ⊢ Pipeline.arrBufs spec0 c W := by
  rw [arrays_chain, arrBufs_chain, hG 0, hG 1, hG 2, hG 3, hG 4, hG 5]
  iintro ⟨H0l, H0r, H1l, H1r, H4, H5⟩
  isplitl [H0l H0r]
  · iapply (pointsTo_share (PosShare.mem_left_op_right fullShare)).2
    isplitl [H0l]; · iexact H0l
    iexact H0r
  isplitl [H1l H1r]
  · iapply (pointsTo_share (PosShare.mem_left_op_right fullShare)).2
    isplitl [H1l]; · iexact H1l
    iexact H1r
  isplitl [H4]; · iexact H4
  iexact H5

theorem hsplit (c : Dev nD) : (Pipeline.arrBufs spec0 c (V m c) : sProp 𝕄) ⊢ (dats m 0 c).arrays ((dats m 0 c).arrAt · 0) :=
  bufs_to_arrays m c (V m c) _ fun w => A_eq m c w

/-! ## The host operations after the region -/

theorem hostOps1_fresh : (hostOps1 : List (HloOp τ sig (Elt F))).Forall fun op => op.fresh = ∅ := by
  simp only [List.Forall]; repeat' constructor

/-- The references the host operations write: their thirteen results. -/
abbrev hostOps1_W : List (Ref sig .tc) :=
  [main_cst, main_v1, main_cst_0, main_v2, main_cst_1, main_v3, main_cst_2, main_v4, main_cst_3, main_v5, main_cst_4, main_v6, main_v7]
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_, ?_, ?_, ?_, ?_, ?_, ?_, ?_⟩ <;>
    (simp only [StableHlo.nullary_writes, StableHlo.binary_writes, Finset.singleton_subset_iff, List.mem_toFinset]; exact List.mem_map_of_mem (by decide))

/-- @main is the region continued by the host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The exit and the final contents read at a TensorCore reference. -/
abbrev Wout (c : Dev nD) (b : Ref sig .tc) : Buf (Elt F) ((c : Thread nD τ).loc b) := Vout m c (Proc.devRef .tc b)
abbrev Wfin (c : Dev nD) (b : Ref sig .tc) : Buf (Elt F) ((c : Thread nD τ).loc b) := Vfin m c (Proc.devRef .tc b)

theorem Wout_of_ne (c : Dev nD) (b : Ref sig .tc) (h4 : b ≠ main_v0_0) (h5 : b ≠ main_v0_1) : Wout m c b = V m c b := by
  unfold Wout Vout
  rw [Function.update_of_ne (StableHlo.devRef_ne_of_ne h5), Function.update_of_ne (StableHlo.devRef_ne_of_ne h4)]
theorem Wout_v0_0 (c : Dev nD) : Wout m c main_v0_0 = (dats m 0 c).arrAt 4 cfg0.N := by
  unfold Wout Vout
  rw [Function.update_of_ne (StableHlo.devRef_ne_of_ne (by decide)), Function.update_self]
theorem Wout_v0_1 (c : Dev nD) : Wout m c main_v0_1 = (dats m 0 c).arrAt 5 cfg0.N := by
  unfold Wout Vout
  rw [Function.update_self]

/-- The host operations write none of the four buffers behind the windows. -/
theorem Wfin_of_not_written (c : Dev nD) (b : Ref sig .tc) (hb : b ∉ hostOps1_W) : Wfin m c b = Wout m c b :=
  StableHlo.after_of_writes_sub hostOps1 _ hostOps1_writes hb

/-- The arrays at the region's exit are the exit valuation's. -/
theorem arrAt_N_eq_Wout (c : Dev nD) (w : Fin cfg0.W) : (dats m 0 c).arrAt w cfg0.N = Wout m c (Pipeline.arrRef spec0 w) := by
  match w with
  | ⟨0, _⟩ => exact ((dats m 0 c).arrAt_in 0 rfl _).trans ((A_eq m c 0).trans (Wout_of_ne m c main_arg0 (by decide) (by decide)).symm)
  | ⟨1, _⟩ => exact ((dats m 0 c).arrAt_in 1 rfl _).trans ((A_eq m c 1).trans (Wout_of_ne m c main_arg0 (by decide) (by decide)).symm)
  | ⟨2, _⟩ => exact ((dats m 0 c).arrAt_in 2 rfl _).trans ((A_eq m c 2).trans (Wout_of_ne m c main_arg1 (by decide) (by decide)).symm)
  | ⟨3, _⟩ => exact ((dats m 0 c).arrAt_in 3 rfl _).trans ((A_eq m c 3).trans (Wout_of_ne m c main_arg1 (by decide) (by decide)).symm)
  | ⟨4, _⟩ => exact (Wout_v0_0 m c).symm
  | ⟨5, _⟩ => exact (Wout_v0_1 m c).symm

theorem arrAt_N_eq_Wfin (c : Dev nD) (w : Fin cfg0.W) : (dats m 0 c).arrAt w cfg0.N = Wfin m c (Pipeline.arrRef spec0 w) := by
  rw [arrAt_N_eq_Wout]
  match w with
  | ⟨0, _⟩ => exact (Wfin_of_not_written m c main_arg0 (by decide)).symm
  | ⟨1, _⟩ => exact (Wfin_of_not_written m c main_arg0 (by decide)).symm
  | ⟨2, _⟩ => exact (Wfin_of_not_written m c main_arg1 (by decide)).symm
  | ⟨3, _⟩ => exact (Wfin_of_not_written m c main_arg1 (by decide)).symm
  | ⟨4, _⟩ => exact (Wfin_of_not_written m c main_v0_0 (by decide)).symm
  | ⟨5, _⟩ => exact (Wfin_of_not_written m c main_v0_1 (by decide)).symm

/-- Off the two output arrays the exit contents are the entry contents. -/
theorem rest_Wout (c : Dev nD) :
    (Pipeline.unscopedRest (Ix := Unit) (Name := ℕ) (U := UR sig nD τ) (Lvl := ℕ) spec0 c (V m c) : sProp 𝕄)
      = Pipeline.unscopedRest spec0 c (Wout m c) := by
  unfold Pipeline.unscopedRest
  refine bigSep_congr fun b hb => ?_
  have hb' : b ∉ Finset.univ.image (Pipeline.arrRef spec0) := (Finset.mem_sdiff.mp hb).2
  rw [Wout_of_ne m c b (fun e => hb' (e ▸ Finset.mem_image.mpr ⟨4, Finset.mem_univ _, rfl⟩))
    (fun e => hb' (e ▸ Finset.mem_image.mpr ⟨5, Finset.mem_univ _, rfl⟩))]

/-- THE HOST OPERATIONS AFTER THE REGION: from the region's exit — the boundary, the six windows' arrays at their final
    contents, the thirteen other buffers at their entry contents — the host operations run, reading the two output
    arrays, and hand back the arrays as they were and the other buffers at the final contents.  The two halves of
    each argument are rejoined for the run (every unscoped buffer is then held whole) and split again after it. -/
theorem tail_ops (c : Dev nD) (Q' : PUnit → sProp 𝕄) :
    iprop((iprop((dats m 0 c).arrays ((dats m 0 c).arrAt · cfg0.N) ∗ Pipeline.unscopedRest spec0 c (Wfin m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift Variants.none) (c.tc : Thread nD τ) none) Set.univ
          (Pipeline.chain [StableHlo.seq hostOps1]) Q' := by
  have hS : ∀ ops ∈ ([hostOps1] : List (List (HloOp τ sig (Elt F)))), ∀ op ∈ ops, op.bufs ⊆ Pipeline.ucRefs τ sig := by
    intro ops hops op hop
    simp only [List.mem_cons, List.mem_nil_iff, or_false] at hops
    subst hops
    exact Pipeline.sub_ucRefs op ((List.forall_iff_forall_mem.mp hostOps1_sub) op hop)
  have hf : ∀ ops ∈ ([hostOps1] : List (List (HloOp τ sig (Elt F)))), ∀ op ∈ ops, op.fresh = ∅ := by
    intro ops hops op hop
    simp only [List.mem_cons, List.mem_nil_iff, or_false] at hops
    subst hops
    exact (List.forall_iff_forall_mem.mp hostOps1_fresh) op hop
  have hpre : (iprop((dats m 0 c).arrays ((dats m 0 c).arrAt · cfg0.N) ∗ Pipeline.unscopedRest spec0 c (V m c)) : sProp 𝕄)
      ⊢ StableHlo.held (c.tc : Thread nD τ) (Pipeline.ucRefs τ sig) (Vout m c) := by
    rw [← Pipeline.unscopedBufs_held (Ix := Unit) (Name := ℕ) (U := UR sig nD τ) (Lvl := ℕ) c (Vout m c),
      Pipeline.unscopedBufs_split₀ cfgs 0 winFacts₀0.arr_unscoped c, rest_Wout]
    exact sep_mono (arrays_to_bufs m c (Wout m c) _ (arrAt_N_eq_Wout m c)) .rfl
  have hpost : (StableHlo.held (c.tc : Thread nD τ) (Pipeline.ucRefs τ sig) (StableHlo.after [hostOps1].flatten (Vout m c)) : sProp 𝕄)
      ⊢ iprop((dats m 0 c).arrays ((dats m 0 c).arrAt · cfg0.N) ∗ Pipeline.unscopedRest spec0 c (Wfin m c)) := by
    rw [show StableHlo.after [hostOps1].flatten (Vout m c) = Vfin m c from by
        unfold Vfin; simp only [List.flatten_cons, List.flatten_nil, List.append_nil],
      ← Pipeline.unscopedBufs_held (Ix := Unit) (Name := ℕ) (U := UR sig nD τ) (Lvl := ℕ) c (Vfin m c),
      Pipeline.unscopedBufs_split₀ cfgs 0 winFacts₀0.arr_unscoped c]
    exact sep_mono (bufs_to_arrays m c (Wfin m c) _ (arrAt_N_eq_Wfin m c)) .rfl
  iintro ⟨Hk, Hb, Ha, Hr⟩
  ihave Hh := hpre $$ [Ha Hr]
  · isplitl [Ha]; · iexact Ha
    iexact Hr
  rw [← List.append_nil [StableHlo.seq hostOps1]]
  iapply (Pipeline.wp_seqs_then (pcfgs (F := F)) defs₀ Variants.none c (Pipeline.ucRefs τ sig) [] [hostOps1] hS hf (Vout m c)) $$ [Hb Hh]
  · isplitl [Hb]; · iexact Hb
    iexact Hh
  iintro ⟨-, Hh⟩
  rw [Pipeline.chain_nil, wp_pure]
  imodintro
  iapply Hk
  iapply hpost
  iexact Hh

/-! ## The run -/

set_option backward.isDefEq.respectTransparency.types false in
/-- Every weakly fair execution of the program terminates without a fault; the three results hold what the host
    operations compute from the region's exit contents, and the two arguments are unchanged. -/
theorem run_main : θ_run defs (onTc (τ := τ) (main (F := F))) ⟨m, fun _ => 0, ρ⟩ (fun r => ∀ c : Dev nD,
      r.2.mem ((c.tc : Thread nD τ).loc main_v7) = Vfin m c (Proc.devRef .tc main_v7)
      ∧ r.2.mem ((c.tc : Thread nD τ).loc main_v3) = Vfin m c (Proc.devRef .tc main_v3)
      ∧ r.2.mem ((c.tc : Thread nD τ).loc main_v4) = Vfin m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun q => (cfgs q).toPCfg_adm) (dats m) () cellOf_inj (0 : Fin 1)
    winFacts₀0 (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wfin m c))
    (hX := fun c => by
      rw [Pipeline.unscopedRestP_none]
      iintro ⟨HU, -, -, -, Hp, -⟩; imodintro
      isplitl [Hp]; · iexists _; iexact Hp
      iexact HU)
    (hin := fun c => (show _ ⊢ (Pipeline.ΦA spec0 c : sProp 𝕄) by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => tail_ops m c Q')
    (QY := fun c s => ∀ b ∈ Pipeline.restRefs sig spec0, s.mem ((c.tc : Thread nD τ).loc b) = Wfin m c b)
    (hY := fun c s' => by
      iintro ⟨-, HU, HSI⟩
      unfold Pipeline.unscopedRest
      imodintro
      iapply (pointsTo_read_all (Pipeline.restRefs sig spec0) (fun b => (c.tc : Thread nD τ).loc b) (Wfin m c) s')
      isplitl [HU] <;> iassumption)
    (hQ := fun s h c => ⟨(h c).2.2 main_v7 (by decide), (h c).2.2 main_v3 (by decide), (h c).2.2 main_v4 (by decide),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c)))⟩)

end Cert.KernelIdeal.Hand

end
-- ==== Proof.Spec.lean ====
/-
  What the two programs compute, over the extended reals.

  With p, t the two length-8192 inputs, write e(r,c) = p r − p c and d(r,c) = t r − t c.  One pair's loss is
  max 0 ( β / (1 + γ·|d|) · |d| − e · sign d ), with β, γ the single-precision words of 0.3 and 0.1.  The rank
  sum adds the losses of the pairs r < c; the squared-error sum adds (p k − t k)².  The three results are
  sq / 8192, rank / 33550336 and 1·(sq / 8192) + 1·(rank / 33550336).

  The kernel reaches the rank sum tile by tile: the index set is cut into 16 row blocks of 512, and row block i
  contributes its diagonal tile under the local mask r < c plus every tile (i, j) with j > i whole.
-/
import Idealize.ShloMosaic.PureOps.Ideal

noncomputable section

namespace Cert.Spec

open Idealize.ShloMosaic

abbrev cBeta : EReal := Ideal.ofBits .f32 0x3E99999A#32
abbrev cGamma : EReal := Ideal.ofBits .f32 0x3DCCCCCD#32
abbrev cOne : EReal := Ideal.ofBits .f32 0x3F800000#32
abbrev cZero : EReal := Ideal.ofBits .f32 0x00000000#32
abbrev cN : EReal := Ideal.ofBits .f32 0x46000000#32
abbrev cK : EReal := Ideal.ofBits .f32 0x4BFFF800#32

/-- One pair's loss from the prediction difference `e` and the target difference `d`. -/
def pair (e d : EReal) : EReal :=
  max cZero (Ideal.div cBeta (cOne + cGamma * max d (-d)) * max d (-d) - e * Ideal.sign d)

/-- The loss of the pair (r, c). -/
def loss (p t : Fin 8192 → EReal) (r c : Fin 8192) : EReal := pair (p r - p c) (t r - t c)

/-- The rank sum: the losses of the pairs r < c. -/
def rankSum (p t : Fin 8192 → EReal) : EReal := ∑ r : Fin 8192, ∑ c : Fin 8192, if r < c then loss p t r c else 0

/-- The squared-error sum. -/
def sqSum (p t : Fin 8192 → EReal) : EReal := ∑ k : Fin 8192, (p k - t k) * (p k - t k)

def mseOf (s : EReal) : EReal := Ideal.div s cN
def rankOf (s : EReal) : EReal := Ideal.div s cK
def combined (a b : EReal) : EReal := cOne * a + cOne * b

/-- The three results, in the programs' order. -/
def res0 (p t : Fin 8192 → EReal) : EReal := combined (mseOf (sqSum p t)) (rankOf (rankSum p t))
def res1 (p t : Fin 8192 → EReal) : EReal := mseOf (sqSum p t)
def res2 (p t : Fin 8192 → EReal) : EReal := rankOf (rankSum p t)

/-! ## The same sums, tile by tile -/

/-- Row r of row block i. -/
def at512 (i : Fin 16) (r : Fin 512) : Fin 8192 := ⟨512 * i.val + r.val, by omega⟩

/-- A whole tile (i, j). -/
def tileFull (p t : Fin 8192 → EReal) (i j : Fin 16) : EReal :=
  ∑ r : Fin 512, ∑ c : Fin 512, loss p t (at512 i r) (at512 j c)
/-- The diagonal tile (i, i) under the local mask r < c, as a product with 1 or 0. -/
def tileDiag (p t : Fin 8192 → EReal) (i : Fin 16) : EReal :=
  ∑ r : Fin 512, ∑ c : Fin 512, loss p t (at512 i r) (at512 i c) * (if r < c then (1 : EReal) else 0)
/-- Row block i's squared error. -/
def tileSq (p t : Fin 8192 → EReal) (i : Fin 16) : EReal :=
  ∑ r : Fin 512, (p (at512 i r) - t (at512 i r)) * (p (at512 i r) - t (at512 i r))
/-- Row block i's share of the rank sum. -/
def rowRank (p t : Fin 8192 → EReal) (i : Fin 16) : EReal :=
  tileDiag p t i + ∑ j : Fin 16, if i < j then tileFull p t i j else 0

end Cert.Spec

end
-- ==== Proof.SpecVec.lean ====
/-
  A length-8192 vector of the programs as a function on Fin 8192.
-/
import proofs.«169254_j59803124630166_1_alg».proof.Proof.Spec
import Idealize.ShloMosaic.Lib.ValueIdx

noncomputable section

namespace Cert.Spec

open Idealize.ShloMosaic

/-- The entries of a rank-1 array of extent 8192, by their position. -/
def vecOf (x : (⟨1, ![8192]⟩ : Shape).Idx → EReal) : Fin 8192 → EReal := fun k => x (ValueIdx.ix1 k)

end Cert.Spec

end
-- ==== Proof.KIPay.lean ====
/-
  The body's stored values read as extended reals: the two resets are zero; the tile steps add to the accumulator's
  one entry the tile's sum of pair losses (whole, or under the local mask r < c on the diagonal) or the row block's
  squared error; the final stores lay the accumulator's entry at position (0, 0) of the output tile, zero elsewhere.

  Each payload is read at an index.  The pointwise operations read through; a column (row) vector spread over a
  512 × 512 tile reads its row's (column's) entry; a sum over every entry of a tile does not see how the tile is laid
  out, so it is the double sum over rows and columns; the kernel's sign (a unit carrying d's sign where |d| > 0, d
  itself elsewhere) is the sign of d at every extended real; the diagonal mask compares positions below 512, which
  order as words the way they order as numbers.
-/
import proofs.«169254_j59803124630166_1_alg».proof.Proof.KIData
import proofs.«169254_j59803124630166_1_alg».proof.Proof.SpecVec
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.KernelIdeal.Hand

open Cert.KernelIdeal Cert.KernelIdeal.Gen Cert.Spec
open Idealize.ShloMosaic Idealize.ShloMosaic.TcCoe

/-- A 512-block's entries by position. -/
def blkOf (x : Vec Ideal S512 .f32) : Fin 512 → EReal := fun r => x (ValueIdx.ix1 r)
/-- An accumulator's one entry. -/
def at00 (a : Vec Ideal S1x1 .f32) : EReal := a (ValueIdx.ix2 0 0)

/-- A tile's sum of pair losses: rows from the blocks `x0` (predictions) and `x2` (targets), columns from `x1` and `x3`. -/
def fullOf (x0 x1 x2 x3 : Vec Ideal S512 .f32) : EReal :=
  ∑ r : Fin 512, ∑ c : Fin 512, pair (blkOf x0 r - blkOf x1 c) (blkOf x2 r - blkOf x3 c)
/-- The same under the local mask r < c, as a product with 1 or 0. -/
def diagOf (x0 x1 x2 x3 : Vec Ideal S512 .f32) : EReal :=
  ∑ r : Fin 512, ∑ c : Fin 512, pair (blkOf x0 r - blkOf x1 c) (blkOf x2 r - blkOf x3 c) * (if r < c then (1 : EReal) else 0)
/-- A row block's squared error. -/
def sqOf (x0 x2 : Vec Ideal S512 .f32) : EReal :=
  ∑ r : Fin 512, (blkOf x0 r - blkOf x2 r) * (blkOf x0 r - blkOf x2 r)

namespace Pay

open Idealize.ShloMosaic.ValueIdx

/-! ## The small layout operations read at an index -/

/-- The entry an extraction at position (0, 0) reads. -/
theorem extract00 {α : Type} (a : S1x1.Idx → α) (h : ∀ b, (![0, 0] : Fin 2 → Nat) b < S1x1.size b) :
    extractAt ![0, 0] a h = a (ix2 0 0) := by
  unfold extractAt
  congr 1
  funext d
  match d with
  | ⟨0, _⟩ => rfl
  | ⟨1, _⟩ => rfl

/-- The entry an extraction at position (0, 0, 0) reads. -/
theorem extract000 {α : Type} (a : S1x1x1.Idx → α) (h : ∀ b, (![0, 0, 0] : Fin 3 → Nat) b < S1x1x1.size b) :
    extractAt ![0, 0, 0] a h = a (ix3 0 0 0) := by
  unfold extractAt
  congr 1
  funext d
  match d with
  | ⟨0, _⟩ => rfl
  | ⟨1, _⟩ => rfl
  | ⟨2, _⟩ => rfl

/-- A one-entry vector laid as a one-by-one tile reads its entry. -/
theorem cast_1_1x1 {α : Type} (x : S1.Idx → α) : shapeCast S1x1 x shapeCasts_S1_S1x1 (ix2 0 0) = x (ix1 0) :=
  shapeCast_apply x _ (ix2 (0 : Fin 1) (0 : Fin 1)) (ix1 (0 : Fin 1)) (by
    rw [Shape.rowMajor_val_one, Shape.rowMajor_val_two]; rfl)

/-- The same laid as a one-by-one-by-one tile. -/
theorem cast_1_1x1x1 {α : Type} (x : S1.Idx → α) : shapeCast S1x1x1 x shapeCasts_S1_S1x1x1 (ix3 0 0 0) = x (ix1 0) :=
  shapeCast_apply x _ (ix3 (0 : Fin 1) (0 : Fin 1) (0 : Fin 1)) (ix1 (0 : Fin 1)) (by
    rw [Shape.rowMajor_val_one, Shape.rowMajor_val_three]; rfl)

/-- A column vector spread over the columns reads its row's entry: [512] → [512, 1] → [512, 512] at (r, c) is the
    vector at r. -/
theorem col_apply {α : Type} (x : S512.Idx → α) (r c : Fin 512) :
    broadcastTo S512x512 (shapeCast S512x1 x shapeCasts_S512_S512x1) broadcasts_S512x1_S512x512 (ix2 r c) = x (ix1 r) := by
  refine (broadcastTo_apply _ _ (ix2 r c) (ix2 r (0 : Fin 1)) fun ax => ?_).trans ?_
  · match ax with
    | ⟨0, _⟩ => rfl
    | ⟨1, _⟩ => rfl
  · exact shapeCast_apply x _ _ _ (by
      rw [Shape.rowMajor_val_one, Shape.rowMajor_val_two]
      show r.val = r.val * 1 + 0
      omega)

/-- A row vector spread over the rows reads its column's entry: [512] → [1, 512] → [512, 512] at (r, c) is the vector
    at c. -/
theorem row_apply {α : Type} (x : S512.Idx → α) (r c : Fin 512) :
    broadcastTo S512x512 (shapeCast S1x512 x shapeCasts_S512_S1x512) broadcasts_S1x512_S512x512 (ix2 r c) = x (ix1 c) :=
  (broadcastTo_1b_ab_apply _ _ r c).trans (shapeCast_a_1a_apply x _ 0 c)

/-! ## Sums -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- A shape cast keeps the total: it only renames the positions. -/
theorem sum_shapeCast {s t : Shape} (x : s.Idx → EReal) (h : s.ShapeCasts t) :
    ∑ j : t.Idx, shapeCast t x h j = ∑ k : s.Idx, x k :=
  Equiv.sum_comp (Shape.reshapeEquiv h) x

/-! ## The absolute value, the sign and the mask at an index -/

/-- An absolute value at an index is the larger of the entry and its negation. -/
theorem absf_apply {s : Shape} (x : FVec Ideal s .f32) (i : s.Idx) : absf x i = max (x i) (-(x i)) := rfl

/-- The kernel's sign: where |d| > 0 the unit carrying d's sign, elsewhere d itself. At every extended real, the two
    infinities included, this is the sign of d (at zero the second branch returns d, which is 0). -/
theorem sign_idiom_apply {s : Shape} (d : FVec Ideal s .f32) (i : s.Idx) :
    select (cmpf .ogt (absf d) (broadcast s (Scalar.ofBits .f32 0x00000000#32)))
        (select (cmpf .olt d (constant s .f32 0x00000000#32)) (constant s .f32 0xBF800000#32) (constant s .f32 0x3F800000#32)) d i
      = Ideal.sign (d i) :=
  Ideal.jnp_sign_eq_sign_f32 (d i)

/-- The diagonal tile's mask: the signed word comparison of the row and column positions, widened and converted, is 1
    where the row is before the column and 0 elsewhere (positions below 512 compare as words the way they compare as
    numbers; the one-bit result widened to 32 bits is the integer 1 or 0). -/
theorem mask_apply (r c : Fin 512) :
    (sitofp .f32 (extui 32 (cmpi .slt (iota .tc S512x512 32 [0] iota_S512x512_d0_w32) (iota .tc S512x512 32 [1] iota_S512x512_d1_w32))
        natLt_1_32) : FVec Ideal S512x512 .f32) (ix2 r c) = if r < c then (1 : EReal) else 0 := by
  show ((((IntOp.cmpi .slt (iota .tc S512x512 32 [0] iota_S512x512_d0_w32 (ix2 r c))
      (iota .tc S512x512 32 [1] iota_S512x512_d1_w32 (ix2 r c))).setWidth 32).toInt : ℝ) : EReal) = _
  rw [iota_single_apply, iota_single_apply]
  have hr := r.isLt
  have hc := c.isLt
  have tr : (BitVec.ofNat 32 r.val).toNat = r.val := by rw [BitVec.toNat_ofNat]; omega
  have tc : (BitVec.ofNat 32 c.val).toNat = c.val := by rw [BitVec.toNat_ofNat]; omega
  have key := StableHlo.Predicate.slt_iff_toNat (a := BitVec.ofNat 32 r.val) (b := BitVec.ofNat 32 c.val)
    (by rw [tr]; omega) (by rw [tc]; omega)
  rw [tr, tc] at key
  by_cases h : r < c
  · rw [if_pos h, show IntOp.cmpi .slt (BitVec.ofNat 32 (ix2 r c 0).val) (BitVec.ofNat 32 (ix2 r c 1).val) = 1#1 from key.mpr h]
    simp
  · rw [if_neg h, show IntOp.cmpi .slt (BitVec.ofNat 32 (ix2 r c 0).val) (BitVec.ofNat 32 (ix2 r c 1).val) = 0#1 from
      eq_zero_of_ne_one fun e => h (key.mp e)]
    simp

/-! ## The output tile's one position -/

/-- A one-bit conjunction is set exactly when both bits are. -/
theorem and_bit : ∀ a b : BitVec 1, IntOp.andi a b = 1#1 ↔ a = 1#1 ∧ b = 1#1 := by decide

/-- A position below 2³² is the zero word exactly when it is zero. -/
theorem ofNat_eq_zero_iff (n : Nat) (h : n < 2 ^ 32) : BitVec.ofNat 32 n = 0#32 ↔ n = 0 := by
  constructor
  · intro e
    have := congrArg BitVec.toNat e
    simp only [BitVec.toNat_ofNat, BitVec.toNat_zero] at this
    omega
  · rintro rfl; rfl

/-- The condition "row position is 0 and column position is 0" of the 8 × 128 tile, at (u, v). -/
theorem pay5_apply (u : Fin 8) (v : Fin 128) : k0_pay5 (ix2 u v) = 1#1 ↔ (u.val = 0 ∧ v.val = 0) := by
  unfold k0_pay5
  show IntOp.andi (IntOp.cmpi .eq (iota .tc S8x128 32 [0] iota_S8x128_d0_w32 (ix2 u v)) 0#32)
      (IntOp.cmpi .eq (iota .tc S8x128 32 [1] iota_S8x128_d1_w32 (ix2 u v)) 0#32) = 1#1 ↔ _
  rw [iota_single_apply, iota_single_apply, and_bit, StableHlo.Predicate.cmpi_eq_iff, StableHlo.Predicate.cmpi_eq_iff]
  have hu := u.isLt
  have hv := v.isLt
  rw [ofNat_eq_zero_iff _ (by show u.val < 2 ^ 32; omega), ofNat_eq_zero_iff _ (by show v.val < 2 ^ 32; omega)]

end Pay

open Idealize.ShloMosaic.ValueIdx Pay

/-! ## The seven payloads -/

theorem pay1_eq : k0_pay1 (F := Ideal) = fun _ => (0 : EReal) := by
  unfold k0_pay1
  funext j
  simp only [shapeCast_self, broadcast_apply]
  exact Ideal.ofBits_zero_f32
theorem pay2_eq : k0_pay2 (F := Ideal) = fun _ => (0 : EReal) := by
  unfold k0_pay2
  funext j
  simp only [shapeCast_self, broadcast_apply]
  exact Ideal.ofBits_zero_f32
theorem pay9_eq (x0 x1 x2 x3 : Vec Ideal S512 .f32) (a : Vec Ideal S1x1 .f32) :
    k0_pay9 x0 x1 x2 x3 a = fun _ => at00 a + fullOf x0 x1 x2 x3 := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay9
  simp only [shapeCast_self, addf_apply, broadcast_apply, extract000, cast_1_1x1x1]
  refine congrArg (a (ix2 0 0) + ·) ?_
  -- the reduction into the one-entry shape is the sum over every entry of the tile
  refine (Ideal.multiReduction_add_total _ _ _ (by decide) _ _ _).trans ?_
  rw [sum_shapeCast, sum_idx2]
  refine Finset.sum_congr rfl fun r _ => Finset.sum_congr rfl fun c _ => ?_
  simp only [maximumf_apply, subf_apply, mulf_apply, divf_apply, addf_apply, broadcast_apply, sign_idiom_apply,
    absf_apply, col_apply, row_apply]
  rfl
theorem pay38_eq (x0 x1 x2 x3 : Vec Ideal S512 .f32) (a : Vec Ideal S1x1 .f32) :
    k0_pay3 (k0_pay8 x0 x1 x2 x3 a) = fun _ => at00 a + diagOf x0 x1 x2 x3 := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay3 k0_pay8
  simp only [shapeCast_self, addf_apply, broadcast_apply, extract000, cast_1_1x1x1]
  refine congrArg (a (ix2 0 0) + ·) ?_
  refine (Ideal.multiReduction_add_total _ _ _ (by decide) _ _ _).trans ?_
  rw [sum_shapeCast, sum_idx2]
  refine Finset.sum_congr rfl fun r _ => Finset.sum_congr rfl fun c _ => ?_
  simp only [maximumf_apply, subf_apply, mulf_apply, divf_apply, addf_apply, broadcast_apply, sign_idiom_apply,
    absf_apply, col_apply, row_apply]
  rw [mask_apply]
  rfl
theorem pay4_eq (x0 x2 : Vec Ideal S512 .f32) (b : Vec Ideal S1x1 .f32) :
    k0_pay4 x0 x2 b = fun _ => at00 b + sqOf x0 x2 := by
  funext j
  obtain ⟨p, q, rfl⟩ : ∃ (p : Fin 1) (q : Fin 1), j = ix2 p q := ⟨j 0, j 1, eq_ix2 j⟩
  obtain rfl : p = 0 := Subsingleton.elim _ _
  obtain rfl : q = 0 := Subsingleton.elim _ _
  unfold k0_pay4
  simp only [shapeCast_self, addf_apply, broadcast_apply, extract00, cast_1_1x1]
  refine congrArg (b (ix2 0 0) + ·) ?_
  refine (Ideal.multiReduction_add_total _ _ _ (by decide) _ _ _).trans ?_
  rw [sum_shapeCast, sum_idx1]
  rfl
theorem pay6_apply (a : Vec Ideal S1x1 .f32) (u : Fin 8) (v : Fin 128) :
    k0_pay6 a (ValueIdx.ix3 0 u v) = if u.val = 0 ∧ v.val = 0 then at00 a else 0 := by
  unfold k0_pay6
  simp only [shapeCast_ab_1ab_apply, select_apply, broadcast_apply, extract00]
  by_cases h : u.val = 0 ∧ v.val = 0
  · rw [if_pos h, (pay5_apply u v).mpr h]; rfl
  · rw [if_neg h, eq_zero_of_ne_one (fun e => h ((pay5_apply u v).mp e)), select_zero]
    exact Ideal.ofBits_zero_f32
theorem pay7_apply (b : Vec Ideal S1x1 .f32) (u : Fin 8) (v : Fin 128) :
    k0_pay7 b (ValueIdx.ix3 0 u v) = if u.val = 0 ∧ v.val = 0 then at00 b else 0 := by
  unfold k0_pay7
  simp only [shapeCast_ab_1ab_apply, select_apply, broadcast_apply, extract00]
  by_cases h : u.val = 0 ∧ v.val = 0
  · rw [if_pos h, (pay5_apply u v).mpr h]; rfl
  · rw [if_neg h, eq_zero_of_ne_one (fun e => h ((pay5_apply u v).mp e)), select_zero]
    exact Ideal.ofBits_zero_f32

end Cert.KernelIdeal.Hand

end
-- ==== Proof.KIValueBlocks.lean ====
/-
  The four input blocks at a grid point, read as rows of the two input vectors.  The grid is walked row by row, so
  point t lies in row block i = t / 16 and column block j = t % 16.  The blocks the body loads there are rows
  512·i … 512·i + 511 and rows 512·j … 512·j + 511 of each input vector: a block's element r sits in its array at
  (block index) · 512 + r, and the block indices at point t are i, j, i, j.  Hence the sums the body forms from the
  four blocks are the specification's tile sums at (i, j): the whole tile, the diagonal tile under the local mask
  (where i = j), and row block i's squared error.
-/
import proofs.«169254_j59803124630166_1_alg».proof.Proof.KIPay

set_option maxRecDepth 16384

noncomputable section

namespace Cert.KernelIdeal.Hand

open Cert.KernelIdeal Cert.KernelIdeal.Gen Cert.Spec
open Idealize.ShloMosaic Idealize.ShloMosaic.TcCoe
open Idealize.SL.Sem

variable (m : (ℓ : Loc nD τ sig) → Buf (Elt Ideal) ℓ)

/-! ## Row block and column block of a grid point -/

/-- A grid point is one of 256. -/
theorem pt_lt (t : Fin cfg0.N) : t.val < 256 := lt_of_lt_of_eq t.isLt N_0

/-- The row block of point t: i = t / 16. -/
def rowBlk (t : Fin cfg0.N) : Fin 16 := ⟨t.val / 16, by have := pt_lt t; omega⟩
/-- The column block of point t: j = t % 16. -/
def colBlk (t : Fin cfg0.N) : Fin 16 := ⟨t.val % 16, by omega⟩

theorem rowBlk_val (t : Fin cfg0.N) : (rowBlk t).val = t.val / 16 := rfl
theorem colBlk_val (t : Fin cfg0.N) : (colBlk t).val = t.val % 16 := rfl

/-- The two input vectors as the region finds them, by position. -/
abbrev pv (c : Dev nD) : Fin 8192 → EReal := vecOf (m ((c.tc : Thread nD τ).loc main_arg0))
abbrev tv (c : Dev nD) : Fin 8192 → EReal := vecOf (m ((c.tc : Thread nD τ).loc main_arg1))

/-! ## The printed index maps over the grid -/

/-- The first and third windows follow the row block, the second and fourth the column block. -/
theorem idx_rows : ∀ t : Fin cfg0.N, win0_0.index t (0 : Fin 1) = t.val / 16 ∧ win0_1.index t (0 : Fin 1) = t.val % 16
    ∧ win0_2.index t (0 : Fin 1) = t.val / 16 ∧ win0_3.index t (0 : Fin 1) = t.val % 16 :=
  (by decide +kernel : ∀ t : Fin grid0.N, win0_0.index t (0 : Fin 1) = t.val / 16 ∧ win0_1.index t (0 : Fin 1) = t.val % 16
    ∧ win0_2.index t (0 : Fin 1) = t.val / 16 ∧ win0_3.index t (0 : Fin 1) = t.val % 16)

/-! ## A block's element in its array -/

/-- Element x of the first window's block at point t is element 512·(t / 16) + x of the first input. -/
theorem xI_apply (c : Dev nD) (t : Fin cfg0.N) (x : S512.Idx) (k : S8192.Idx)
    (hk : (k 0).val = 512 * (t.val / 16) + (x 0).val) :
    (xI m c t) x = (m ((c.tc : Thread nD τ).loc main_arg0) : S8192.Idx → EReal) k := by
  obtain ⟨e0, -, -, -⟩ := idx_rows t
  show ((cfg0.win 0).blk t).view.read (Elt Ideal) (V m c main_arg0) x = _
  rw [View.read_apply]
  show V m c main_arg0 (((cfg0.win 0).blk t).view.emb x) = V m c main_arg0 k
  refine congrArg _ (funext fun a => Fin.ext ?_)
  match a with
  | ⟨0, _⟩ => show win0_0.index t (0 : Fin 1) * 512 + 1 * (x 0).val = (k 0).val; rw [e0, hk]; omega

/-- Element x of the second window's block at point t is element 512·(t % 16) + x of the first input. -/
theorem xJ_apply (c : Dev nD) (t : Fin cfg0.N) (x : S512.Idx) (k : S8192.Idx)
    (hk : (k 0).val = 512 * (t.val % 16) + (x 0).val) :
    (xJ m c t) x = (m ((c.tc : Thread nD τ).loc main_arg0) : S8192.Idx → EReal) k := by
  obtain ⟨-, e1, -, -⟩ := idx_rows t
  show ((cfg0.win 1).blk t).view.read (Elt Ideal) (V m c main_arg0) x = _
  rw [View.read_apply]
  show V m c main_arg0 (((cfg0.win 1).blk t).view.emb x) = V m c main_arg0 k
  refine congrArg _ (funext fun a => Fin.ext ?_)
  match a with
  | ⟨0, _⟩ => show win0_1.index t (0 : Fin 1) * 512 + 1 * (x 0).val = (k 0).val; rw [e1, hk]; omega

/-- Element x of the third window's block at point t is element 512·(t / 16) + x of the second input. -/
theorem yI_apply (c : Dev nD) (t : Fin cfg0.N) (x : S512.Idx) (k : S8192.Idx)
    (hk : (k 0).val = 512 * (t.val / 16) + (x 0).val) :
    (yI m c t) x = (m ((c.tc : Thread nD τ).loc main_arg1) : S8192.Idx → EReal) k := by
  obtain ⟨-, -, e2, -⟩ := idx_rows t
  show ((cfg0.win 2).blk t).view.read (Elt Ideal) (V m c main_arg1) x = _
  rw [View.read_apply]
  show V m c main_arg1 (((cfg0.win 2).blk t).view.emb x) = V m c main_arg1 k
  refine congrArg _ (funext fun a => Fin.ext ?_)
  match a with
  | ⟨0, _⟩ => show win0_2.index t (0 : Fin 1) * 512 + 1 * (x 0).val = (k 0).val; rw [e2, hk]; omega

/-- Element x of the fourth window's block at point t is element 512·(t % 16) + x of the second input. -/
theorem yJ_apply (c : Dev nD) (t : Fin cfg0.N) (x : S512.Idx) (k : S8192.Idx)
    (hk : (k 0).val = 512 * (t.val % 16) + (x 0).val) :
    (yJ m c t) x = (m ((c.tc : Thread nD τ).loc main_arg1) : S8192.Idx → EReal) k := by
  obtain ⟨-, -, -, e3⟩ := idx_rows t
  show ((cfg0.win 3).blk t).view.read (Elt Ideal) (V m c main_arg1) x = _
  rw [View.read_apply]
  show V m c main_arg1 (((cfg0.win 3).blk t).view.emb x) = V m c main_arg1 k
  refine congrArg _ (funext fun a => Fin.ext ?_)
  match a with
  | ⟨0, _⟩ => show win0_3.index t (0 : Fin 1) * 512 + 1 * (x 0).val = (k 0).val; rw [e3, hk]; omega

/-! ## The blocks by position -/

/-- Row r of the row block's predictions. -/
theorem blkOf_xI (c : Dev nD) (t : Fin cfg0.N) (r : Fin 512) : blkOf (xI m c t) r = pv m c (at512 (rowBlk t) r) :=
  xI_apply m c t (ValueIdx.ix1 r) (ValueIdx.ix1 (at512 (rowBlk t) r)) rfl
/-- Row r of the column block's predictions. -/
theorem blkOf_xJ (c : Dev nD) (t : Fin cfg0.N) (r : Fin 512) : blkOf (xJ m c t) r = pv m c (at512 (colBlk t) r) :=
  xJ_apply m c t (ValueIdx.ix1 r) (ValueIdx.ix1 (at512 (colBlk t) r)) rfl
/-- Row r of the row block's targets. -/
theorem blkOf_yI (c : Dev nD) (t : Fin cfg0.N) (r : Fin 512) : blkOf (yI m c t) r = tv m c (at512 (rowBlk t) r) :=
  yI_apply m c t (ValueIdx.ix1 r) (ValueIdx.ix1 (at512 (rowBlk t) r)) rfl
/-- Row r of the column block's targets. -/
theorem blkOf_yJ (c : Dev nD) (t : Fin cfg0.N) (r : Fin 512) : blkOf (yJ m c t) r = tv m c (at512 (colBlk t) r) :=
  yJ_apply m c t (ValueIdx.ix1 r) (ValueIdx.ix1 (at512 (colBlk t) r)) rfl

/-! ## The body's sums are the specification's tile sums -/

/-- The whole tile at a point is tile (i, j). -/
theorem fullOf_pt (c : Dev nD) (t : Fin cfg0.N) :
    fullOf (xI m c t) (xJ m c t) (yI m c t) (yJ m c t) = tileFull (pv m c) (tv m c) (rowBlk t) (colBlk t) := by
  unfold fullOf tileFull loss
  refine Finset.sum_congr rfl fun r _ => Finset.sum_congr rfl fun s _ => ?_
  rw [blkOf_xI, blkOf_xJ, blkOf_yI, blkOf_yJ]

/-- On the diagonal the masked tile is the diagonal tile of the row block. -/
theorem diagOf_pt (c : Dev nD) (t : Fin cfg0.N) (h : t.val / 16 = t.val % 16) :
    diagOf (xI m c t) (xJ m c t) (yI m c t) (yJ m c t) = tileDiag (pv m c) (tv m c) (rowBlk t) := by
  have hj : colBlk t = rowBlk t := Fin.ext h.symm
  unfold diagOf tileDiag loss
  refine Finset.sum_congr rfl fun r _ => Finset.sum_congr rfl fun s _ => ?_
  rw [blkOf_xI, blkOf_xJ, blkOf_yI, blkOf_yJ, hj]

/-- The squared error of the row block's rows. -/
theorem sqOf_pt (c : Dev nD) (t : Fin cfg0.N) :
    sqOf (xI m c t) (yI m c t) = tileSq (pv m c) (tv m c) (rowBlk t) := by
  unfold sqOf tileSq
  refine Finset.sum_congr rfl fun r _ => ?_
  rw [blkOf_xI, blkOf_yI]

end Cert.KernelIdeal.Hand

end
-- ==== Proof.KIValueAcc.lean ====
/-
  The two accumulators after a row block's sixteen points.  Inside row block i the points are t = 16·i + j, j = 0 … 15.
  The point j = 0 resets both accumulators; every point then adds its term: to the rank accumulator the diagonal tile
  under the local mask when j = i and the whole tile (i, j) when j > i, nothing when j < i; to the squared-error
  accumulator row block i's squared error when j = i.  So after the sixteen points the rank accumulator's entry is
  row block i's share of the rank sum, and the squared-error accumulator's entry is row block i's squared error.
  Addition of extended reals is commutative and associative, so the order of the terms does not matter and no
  finiteness is used.
-/
import proofs.«169254_j59803124630166_1_alg».proof.Proof.KIValueBlocks
import Mathlib.Algebra.BigOperators.Group.Finset.Basic
import Mathlib.Algebra.BigOperators.Group.Finset.Piecewise

set_option maxRecDepth 16384

noncomputable section

namespace Cert.KernelIdeal.Hand

open Cert.KernelIdeal Cert.KernelIdeal.Gen Cert.Spec
open Idealize.ShloMosaic Idealize.ShloMosaic.TcCoe
open Idealize.SL.Sem

variable (m : (ℓ : Loc nD τ sig) → Buf (Elt Ideal) ℓ)

/-! ## A sum over the first k of sixteen terms -/

/-- Taking one more term. -/
theorem sum_lt_succ (f : Fin 16 → EReal) (k : ℕ) (hk : k < 16) :
    (∑ j : Fin 16, if j.val < k + 1 then f j else 0) = (∑ j : Fin 16, if j.val < k then f j else 0) + f ⟨k, hk⟩ := by
  have hsplit : ∀ j : Fin 16, (if j.val < k + 1 then f j else 0)
      = (if j.val < k then f j else 0) + (if j = ⟨k, hk⟩ then f j else 0) := by
    intro j
    by_cases h1 : j.val < k
    · have hne : ¬ j = ⟨k, hk⟩ := fun e => by have : j.val = k := congrArg Fin.val e; omega
      rw [if_pos (by omega), if_pos h1, if_neg hne, add_zero]
    · by_cases h2 : j.val = k
      · rw [if_pos (by omega), if_neg h1, if_pos (Fin.ext h2), zero_add]
      · have hne : ¬ j = ⟨k, hk⟩ := fun e => h2 (congrArg Fin.val e)
        rw [if_neg (by omega), if_neg h1, if_neg hne, add_zero]
  rw [Finset.sum_congr rfl fun j _ => hsplit j, Finset.sum_add_distrib, Finset.sum_ite_eq' Finset.univ ⟨k, hk⟩ f,
    if_pos (Finset.mem_univ _)]

/-- A sequence that, along sixteen consecutive steps from b, is reset at the first step and adds one term at every
    step ends at the sum of the sixteen terms. -/
theorem row_fold (A : ℕ → EReal) (b : ℕ) (f : Fin 16 → EReal)
    (hstep : ∀ (k : ℕ) (hk : k < 16), A (b + k + 1) = (if k = 0 then 0 else A (b + k)) + f ⟨k, hk⟩) :
    A (b + 16) = ∑ j : Fin 16, f j := by
  have hpart : ∀ (k : ℕ) (hk : k < 16), A (b + k + 1) = ∑ j : Fin 16, if j.val < k + 1 then f j else 0 := by
    intro k
    induction k with
    | zero =>
      intro hk
      rw [hstep 0 hk, if_pos rfl, sum_lt_succ f 0 hk]
      refine congrArg (· + f ⟨0, hk⟩) ?_
      exact (Finset.sum_eq_zero fun j _ => if_neg (Nat.not_lt_zero _)).symm
    | succ k ih =>
      intro hk
      rw [hstep (k + 1) hk, if_neg (Nat.succ_ne_zero k), sum_lt_succ f (k + 1) hk]
      exact congrArg (· + f ⟨k + 1, hk⟩) (ih (by omega))
  have h15 := hpart 15 (by omega)
  rw [show b + 15 + 1 = b + 16 from rfl] at h15
  rw [h15]
  exact Finset.sum_congr rfl fun j _ => if_pos j.isLt

/-! ## One point's effect on the accumulators' entries -/

/-- A constant tile's entry. -/
theorem at00_const (v : EReal) : at00 (fun _ => v) = v := rfl

/-- Adding under a condition is adding the term or zero. -/
theorem ite_add_else (p : Prop) [Decidable p] (x y : EReal) : (if p then x + y else x) = x + (if p then y else 0) := by
  by_cases h : p
  · rw [if_pos h, if_pos h]
  · rw [if_neg h, if_neg h, add_zero]

/-- The rank accumulator's entry after a point: the entry found (zero after a reset), plus the masked tile on the
    diagonal, plus the whole tile right of it. -/
theorem at00_stepR (i : grid0.Coords) (x0 x1 x2 x3 : Vec Ideal S512 .f32) (a : Vec Ideal S1x1 .f32) :
    at00 (stepR i x0 x1 x2 x3 a)
      = ((if c1 i then 0 else at00 a) + (if c2 i then diagOf x0 x1 x2 x3 else 0)) + (if c3 i then fullOf x0 x1 x2 x3 else 0) := by
  unfold stepR
  simp only [apply_ite at00, pay1_eq, pay38_eq, pay9_eq, at00_const, ite_add_else]

/-- The squared-error accumulator's entry after a point: the entry found (zero after a reset), plus the row block's
    squared error on the diagonal. -/
theorem at00_stepM (i : grid0.Coords) (x0 x2 : Vec Ideal S512 .f32) (b : Vec Ideal S1x1 .f32) :
    at00 (stepM i x0 x2 b) = (if c1 i then 0 else at00 b) + (if c2 i then sqOf x0 x2 else 0) := by
  unfold stepM
  simp only [apply_ite at00, pay2_eq, pay4_eq, at00_const, ite_add_else]

/-! ## The terms of row block i -/

/-- What point (i, j) adds to the rank accumulator. -/
def termR (c : Dev nD) (i j : Fin 16) : EReal :=
  (if i = j then tileDiag (pv m c) (tv m c) i else 0) + (if i < j then tileFull (pv m c) (tv m c) i j else 0)

/-- What point (i, j) adds to the squared-error accumulator. -/
def termM (c : Dev nD) (i j : Fin 16) : EReal := if i = j then tileSq (pv m c) (tv m c) i else 0

/-- The rank accumulator's entry, point by point. -/
theorem accR_step (c : Dev nD) (t : Fin cfg0.N) :
    at00 (accR m c (t.val + 1)) = (if t.val % 16 = 0 then 0 else at00 (accR m c t.val)) + termR m c (rowBlk t) (colBlk t) := by
  rw [accR_succ, at00_stepR, add_assoc]
  refine congr (congrArg _ (if_congr (hc1 t) rfl rfl)) ?_
  unfold termR
  refine congr (congrArg _ ?_) ?_
  · by_cases h : t.val / 16 = t.val % 16
    · rw [if_pos ((hc2 t).mpr h), if_pos (Fin.ext h), diagOf_pt m c t h]
    · rw [if_neg (fun h' => h ((hc2 t).mp h')), if_neg (fun h' => h (congrArg Fin.val h'))]
  · by_cases h : t.val / 16 < t.val % 16
    · rw [if_pos ((hc3 t).mpr h), if_pos (Fin.lt_def.mpr h), fullOf_pt]
    · rw [if_neg (fun h' => h ((hc3 t).mp h')), if_neg (fun h' => h (Fin.lt_def.mp h'))]

/-- The squared-error accumulator's entry, point by point. -/
theorem accM_step (c : Dev nD) (t : Fin cfg0.N) :
    at00 (accM m c (t.val + 1)) = (if t.val % 16 = 0 then 0 else at00 (accM m c t.val)) + termM m c (rowBlk t) (colBlk t) := by
  rw [accM_succ, at00_stepM]
  refine congr (congrArg _ (if_congr (hc1 t) rfl rfl)) ?_
  unfold termM
  by_cases h : t.val / 16 = t.val % 16
  · rw [if_pos ((hc2 t).mpr h), if_pos (Fin.ext h), sqOf_pt]
  · rw [if_neg (fun h' => h ((hc2 t).mp h')), if_neg (fun h' => h (congrArg Fin.val h'))]

/-! ## Row block i's sixteen points -/

/-- Point (i, k) of the grid. -/
def pt (i : Fin 16) (k : ℕ) (hk : k < 16) : Fin cfg0.N :=
  ⟨16 * i.val + k, lt_of_lt_of_eq (show 16 * i.val + k < 256 by omega) N_0.symm⟩

theorem pt_val (i : Fin 16) (k : ℕ) (hk : k < 16) : (pt i k hk).val = 16 * i.val + k := rfl
theorem rowBlk_pt (i : Fin 16) (k : ℕ) (hk : k < 16) : rowBlk (pt i k hk) = i :=
  Fin.ext (show (16 * i.val + k) / 16 = i.val by omega)
theorem colBlk_pt (i : Fin 16) (k : ℕ) (hk : k < 16) : colBlk (pt i k hk) = ⟨k, hk⟩ :=
  Fin.ext (show (16 * i.val + k) % 16 = k by omega)

/-- After row block i's sixteen points the rank accumulator's entry is the row block's share of the rank sum. -/
theorem accR_rowEnd (c : Dev nD) (i : Fin 16) :
    at00 (accR m c (16 * i.val + 16)) = rowRank (pv m c) (tv m c) i := by
  rw [row_fold (fun n => at00 (accR m c n)) (16 * i.val) (termR m c i) fun k hk => by
    have h := accR_step m c (pt i k hk)
    rw [rowBlk_pt, colBlk_pt, pt_val] at h
    show at00 (accR m c (16 * i.val + k + 1)) = (if k = 0 then 0 else at00 (accR m c (16 * i.val + k))) + termR m c i ⟨k, hk⟩
    rw [h]
    exact congrArg (· + termR m c i ⟨k, hk⟩) (if_congr (by omega) rfl rfl)]
  unfold termR rowRank
  rw [Finset.sum_add_distrib, Finset.sum_ite_eq Finset.univ i fun _ => tileDiag (pv m c) (tv m c) i, if_pos (Finset.mem_univ _)]

/-- After row block i's sixteen points the squared-error accumulator's entry is the row block's squared error. -/
theorem accM_rowEnd (c : Dev nD) (i : Fin 16) :
    at00 (accM m c (16 * i.val + 16)) = tileSq (pv m c) (tv m c) i := by
  rw [row_fold (fun n => at00 (accM m c n)) (16 * i.val) (termM m c i) fun k hk => by
    have h := accM_step m c (pt i k hk)
    rw [rowBlk_pt, colBlk_pt, pt_val] at h
    show at00 (accM m c (16 * i.val + k + 1)) = (if k = 0 then 0 else at00 (accM m c (16 * i.val + k))) + termM m c i ⟨k, hk⟩
    rw [h]
    exact congrArg (· + termM m c i ⟨k, hk⟩) (if_congr (by omega) rfl rfl)]
  unfold termM
  rw [Finset.sum_ite_eq Finset.univ i fun _ => tileSq (pv m c) (tv m c) i, if_pos (Finset.mem_univ _)]

end Cert.KernelIdeal.Hand

end
-- ==== Proof.KIValueArr.lean ====
/-
  The two output arrays after the region, each as one function of the index.  An output window's block at point t is
  the slab i = t / 16 of its 16 × 8 × 128 array (block index (i, 0, 0), block size 1 × 8 × 128), and the window is
  written back exactly at the row blocks' last points, t % 16 = 15.  What such a point writes back is the body's final
  store there: the accumulator after the first t + 1 = 16·i + 16 points, laid out over the 8 × 128 tile.  The sixteen
  slabs cover the array, so entry (i, u, v) of the array ends holding entry (0, u, v) of that tile.
-/
import proofs.«169254_j59803124630166_1_alg».proof.Proof.KIData
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable (m : (ℓ : Loc nD τ sig) → Buf (Elt Ideal) ℓ)

/-! ## The arrays' closed forms -/

/-- Entry (u, v) of slab 0 of a 1 × 8 × 128 tile, the coordinates taken from an index of the 16 × 8 × 128 array. -/
abbrev slabIdx (idx : S16x8x128.Idx) : S1x8x128.Idx :=
  ValueIdx.ix3 (0 : Fin 1) (⟨(idx 1).val, (idx 1).isLt⟩ : Fin 8) (⟨(idx 2).val, (idx 2).isLt⟩ : Fin 128)

/-- The rank array: slab i holds the rank accumulator after row block i's sixteen points, laid over the tile. -/
def outR (c : Dev nD) : S16x8x128.Idx → EReal := fun idx =>
  (k0_pay6 (accR m c (16 * (idx 0).val + 16)) : S1x8x128.Idx → EReal) (slabIdx idx)

/-- The squared-error array: slab i holds the squared-error accumulator after row block i's sixteen points. -/
def outM (c : Dev nD) : S16x8x128.Idx → EReal := fun idx =>
  (k0_pay7 (accM m c (16 * (idx 0).val + 16)) : S1x8x128.Idx → EReal) (slabIdx idx)

/-- An index of the array whose slab is complete after n points and whose last two coordinates are those of y reads
    the tile laid from the accumulator after n points, at y. -/
theorem outR_at (c : Dev nD) (idx : S16x8x128.Idx) (n : ℕ) (y : S1x8x128.Idx) (hn : 16 * (idx 0).val + 16 = n)
    (h1 : (idx 1).val = (y 1).val) (h2 : (idx 2).val = (y 2).val) :
    outR m c idx = (k0_pay6 (accR m c n) : S1x8x128.Idx → EReal) y := by
  subst hn
  unfold outR
  refine congrArg _ (funext fun a => Fin.ext ?_)
  match a with
  | ⟨0, _⟩ => show (0 : ℕ) = (y 0).val; have : (y 0).val < 1 := (y 0).isLt; omega
  | ⟨1, _⟩ => exact h1
  | ⟨2, _⟩ => exact h2

theorem outM_at (c : Dev nD) (idx : S16x8x128.Idx) (n : ℕ) (y : S1x8x128.Idx) (hn : 16 * (idx 0).val + 16 = n)
    (h1 : (idx 1).val = (y 1).val) (h2 : (idx 2).val = (y 2).val) :
    outM m c idx = (k0_pay7 (accM m c n) : S1x8x128.Idx → EReal) y := by
  subst hn
  unfold outM
  refine congrArg _ (funext fun a => Fin.ext ?_)
  match a with
  | ⟨0, _⟩ => show (0 : ℕ) = (y 0).val; have : (y 0).val < 1 := (y 0).isLt; omega
  | ⟨1, _⟩ => exact h1
  | ⟨2, _⟩ => exact h2

/-! ## The output windows' index maps over the grid -/

/-- Both output windows sit at block (t / 16, 0, 0). -/
theorem idx_out : ∀ t : Fin cfg0.N, win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0)

/-! ## What a write-back writes -/

/-- At a row block's last point the rank window writes back its block of `outR`. -/
theorem flushedR_eq (c : Dev nD) (t : Fin cfg0.N) (hf : (cfg0.win 4).flush t = true) :
    (dats m 0 c).flushed 4 t = ((cfg0.win 4).blk t).view.read (Elt Ideal) (outR m c) := by
  have h15 : t.val % 16 = 15 := (flush0_4 t).mp hf
  obtain ⟨e0, e1, e2, -, -, -⟩ := idx_out t
  show (cfg0.win 4).cut (grid0.coords t) ((dats m 0 c).after 4 t) = _
  rw [after0_4]
  funext y
  rw [View.read_apply]
  have hy0 : (y 0).val < 1 := (y 0).isLt
  refine (outR_at m c (((cfg0.win 4).blk t).view.emb y) (t.val + 1) ((cfg0.win 4).xinj (grid0.coords t) y) ?_ ?_ ?_).symm
  · show 16 * (win0_4.index t (0 : Fin 3) * 1 + 1 * (y 0).val) + 16 = t.val + 1
    rw [e0]; omega
  · show win0_4.index t (1 : Fin 3) * 8 + 1 * (y 1).val = (y 1).val
    rw [e1]; omega
  · show win0_4.index t (2 : Fin 3) * 128 + 1 * (y 2).val = (y 2).val
    rw [e2]; omega

/-- At a row block's last point the squared-error window writes back its block of `outM`. -/
theorem flushedM_eq (c : Dev nD) (t : Fin cfg0.N) (hf : (cfg0.win 5).flush t = true) :
    (dats m 0 c).flushed 5 t = ((cfg0.win 5).blk t).view.read (Elt Ideal) (outM m c) := by
  have h15 : t.val % 16 = 15 := (flush0_5 t).mp hf
  obtain ⟨-, -, -, e0, e1, e2⟩ := idx_out t
  show (cfg0.win 5).cut (grid0.coords t) ((dats m 0 c).after 5 t) = _
  rw [after0_5]
  funext y
  rw [View.read_apply]
  have hy0 : (y 0).val < 1 := (y 0).isLt
  refine (outM_at m c (((cfg0.win 5).blk t).view.emb y) (t.val + 1) ((cfg0.win 5).xinj (grid0.coords t) y) ?_ ?_ ?_).symm
  · show 16 * (win0_5.index t (0 : Fin 3) * 1 + 1 * (y 0).val) + 16 = t.val + 1
    rw [e0]; omega
  · show win0_5.index t (1 : Fin 3) * 8 + 1 * (y 1).val = (y 1).val
    rw [e1]; omega
  · show win0_5.index t (2 : Fin 3) * 128 + 1 * (y 2).val = (y 2).val
    rw [e2]; omega

/-! ## The slabs cover the arrays -/

/-- An index is in a point's block iff each coordinate is in the block's range on its axis. -/
theorem mem_blkR (t : Fin cfg0.N) (i : S16x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_0).slice (win0_4.rect t)).set ↔ _
  rw [View.set_slice_whole, Rect.mem_set_unit]
  exact Iff.rfl
theorem mem_blkM (t : Fin cfg0.N) (i : S16x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_1).slice (win0_5.rect t)).set ↔ _
  rw [View.set_slice_whole, Rect.mem_set_unit]
  exact Iff.rfl

/-- The last point of row block i. -/
def lastPt (i : S16x8x128.Idx) : Fin cfg0.N :=
  ⟨16 * (i 0).val + 15, by have h0 : (i 0).val < 16 := (i 0).isLt; exact lt_of_lt_of_eq (show 16 * (i 0).val + 15 < 256 by omega) N_0.symm⟩

theorem lastPt_val (i : S16x8x128.Idx) : (lastPt i).val = 16 * (i 0).val + 15 := rfl

/-- Index (i, u, v) lies in the slab written back at the last point of row block i. -/
theorem coverR (i : S16x8x128.Idx) : ∃ t : Fin cfg0.N, (cfg0.win 4).flush t = true ∧ i ∈ ((cfg0.win 4).blk t).view.set := by
  have h0 : (i 0).val < 16 := (i 0).isLt
  have h1 : (i 1).val < 8 := (i 1).isLt
  have h2 : (i 2).val < 128 := (i 2).isLt
  have hv := lastPt_val i
  obtain ⟨e0, e1, e2, -, -, -⟩ := idx_out (lastPt i)
  refine ⟨lastPt i, (flush0_4 (lastPt i)).mpr (by rw [hv]; omega), ?_⟩
  rw [mem_blkR]
  intro a
  match a with
  | ⟨0, _⟩ => show win0_4.index (lastPt i) (0 : Fin 3) * 1 ≤ (i 0).val ∧ (i 0).val < win0_4.index (lastPt i) (0 : Fin 3) * 1 + 1; rw [e0, hv]; omega
  | ⟨1, _⟩ => show win0_4.index (lastPt i) (1 : Fin 3) * 8 ≤ (i 1).val ∧ (i 1).val < win0_4.index (lastPt i) (1 : Fin 3) * 8 + 8; rw [e1]; omega
  | ⟨2, _⟩ => show win0_4.index (lastPt i) (2 : Fin 3) * 128 ≤ (i 2).val ∧ (i 2).val < win0_4.index (lastPt i) (2 : Fin 3) * 128 + 128; rw [e2]; omega

theorem coverM (i : S16x8x128.Idx) : ∃ t : Fin cfg0.N, (cfg0.win 5).flush t = true ∧ i ∈ ((cfg0.win 5).blk t).view.set := by
  have h0 : (i 0).val < 16 := (i 0).isLt
  have h1 : (i 1).val < 8 := (i 1).isLt
  have h2 : (i 2).val < 128 := (i 2).isLt
  have hv := lastPt_val i
  obtain ⟨-, -, -, e0, e1, e2⟩ := idx_out (lastPt i)
  refine ⟨lastPt i, (flush0_5 (lastPt i)).mpr (by rw [hv]; omega), ?_⟩
  rw [mem_blkM]
  intro a
  match a with
  | ⟨0, _⟩ => show win0_5.index (lastPt i) (0 : Fin 3) * 1 ≤ (i 0).val ∧ (i 0).val < win0_5.index (lastPt i) (0 : Fin 3) * 1 + 1; rw [e0, hv]; omega
  | ⟨1, _⟩ => show win0_5.index (lastPt i) (1 : Fin 3) * 8 ≤ (i 1).val ∧ (i 1).val < win0_5.index (lastPt i) (1 : Fin 3) * 8 + 8; rw [e1]; omega
  | ⟨2, _⟩ => show win0_5.index (lastPt i) (2 : Fin 3) * 128 ≤ (i 2).val ∧ (i 2).val < win0_5.index (lastPt i) (2 : Fin 3) * 128 + 128; rw [e2]; omega

/-! ## The arrays after the region -/

/-- The rank array after the region. -/
theorem arrR_eq (c : Dev nD) : (dats m 0 c).arrAt 4 cfg0.N = outR m c :=
  (dats m 0 c).arrAt_eq_of_cover 4 (outR m c) (fun t hf => flushedR_eq m c t hf) coverR

/-- The squared-error array after the region. -/
theorem arrM_eq (c : Dev nD) : (dats m 0 c).arrAt 5 cfg0.N = outM m c :=
  (dats m 0 c).arrAt_eq_of_cover 5 (outM m c) (fun t hf => flushedM_eq m c t hf) coverM

end Cert.KernelIdeal.Hand

end
-- ==== Proof.SpecTiles.lean ====
/-
  The rank sum and the squared-error sum, regrouped by row blocks.

  The index set of 8192 rows is the disjoint union of 16 blocks of 512 rows: (i, r) ↦ 512·i + r is a bijection
  from Fin 16 × Fin 512 onto Fin 8192.  A sum over the 8192 rows is therefore a double sum over blocks and
  rows inside a block.  For rows r = 512·i + a and c = 512·j + b one has r < c exactly when i < j, or i = j and
  a < b.  So inside row block i the tiles left of the diagonal contribute nothing, the diagonal tile
  contributes its pairs with a < b, and every tile right of the diagonal contributes whole.
-/
import proofs.«169254_j59803124630166_1_alg».proof.Proof.Spec
import Mathlib.Data.Fintype.BigOperators
import Mathlib.Algebra.BigOperators.Group.Finset.Basic
import Mathlib.Algebra.BigOperators.Group.Finset.Piecewise
import Mathlib.Algebra.BigOperators.Group.Finset.Sigma

noncomputable section

namespace Cert.Spec

/-- The bijection (i, r) ↦ 512·i + r between block-and-row pairs and rows. -/
def blockEquiv : Fin 16 × Fin 512 ≃ Fin 8192 where
  toFun x := at512 x.1 x.2
  invFun k := (⟨k.val / 512, by omega⟩, ⟨k.val % 512, by omega⟩)
  left_inv := by
    rintro ⟨i, r⟩
    apply Prod.ext
    · apply Fin.ext
      show (512 * i.val + r.val) / 512 = i.val
      omega
    · apply Fin.ext
      show (512 * i.val + r.val) % 512 = r.val
      omega
  right_inv := by
    intro k
    apply Fin.ext
    show 512 * (k.val / 512) + k.val % 512 = k.val
    omega

/-- A sum over the rows is a sum over the blocks of the sums over each block's rows. -/
theorem sum_blocks (f : Fin 8192 → EReal) :
    ∑ k : Fin 8192, f k = ∑ i : Fin 16, ∑ r : Fin 512, f (at512 i r) := by
  rw [← blockEquiv.sum_comp f, Fintype.sum_prod_type]
  rfl

/-- The order of two rows read off their blocks and their places inside the blocks. -/
theorem at512_lt (i j : Fin 16) (a b : Fin 512) :
    at512 i a < at512 j b ↔ i < j ∨ (i = j ∧ a < b) := by
  simp only [Fin.lt_def, Fin.ext_iff, at512]
  omega

/-- The masked pairs of rows of block i against rows of block j: nothing left of the diagonal, the locally
masked tile on it, the whole tile right of it. -/
theorem tile_masked (p t : Fin 8192 → EReal) (i j : Fin 16) :
    (∑ a : Fin 512, ∑ b : Fin 512,
        if at512 i a < at512 j b then loss p t (at512 i a) (at512 j b) else 0)
      = (if j = i then tileDiag p t i else 0) + (if i < j then tileFull p t i j else 0) := by
  rcases lt_trichotomy i j with h | h | h
  · -- right of the diagonal: every pair counts
    have hne : ¬ j = i := fun e => by subst e; exact lt_irrefl _ h
    rw [if_neg hne, if_pos h, zero_add]
    unfold tileFull
    refine Finset.sum_congr rfl fun a _ => Finset.sum_congr rfl fun b _ => ?_
    rw [if_pos ((at512_lt i j a b).2 (Or.inl h))]
  · -- on the diagonal: the pairs with a < b
    subst h
    rw [if_pos rfl, if_neg (lt_irrefl _), add_zero]
    unfold tileDiag
    refine Finset.sum_congr rfl fun a _ => Finset.sum_congr rfl fun b _ => ?_
    by_cases hab : a < b
    · rw [if_pos ((at512_lt i i a b).2 (Or.inr ⟨rfl, hab⟩)), if_pos hab, mul_one]
    · have hn : ¬ at512 i a < at512 i b := fun hh =>
        ((at512_lt i i a b).1 hh).elim (fun h' => lt_irrefl _ h') (fun h' => hab h'.2)
      rw [if_neg hn, if_neg hab, mul_zero]
  · -- left of the diagonal: no pair counts
    have hne : ¬ j = i := fun e => by subst e; exact lt_irrefl _ h
    rw [if_neg hne, if_neg (lt_asymm h), add_zero]
    refine Finset.sum_eq_zero fun a _ => Finset.sum_eq_zero fun b _ => ?_
    have hn : ¬ at512 i a < at512 j b := fun hh =>
      ((at512_lt i j a b).1 hh).elim (fun h' => lt_asymm h h')
        (fun h' => by rw [h'.1] at h; exact lt_irrefl _ h)
    rw [if_neg hn]

/-- The rank sum is the sum of the row blocks' shares. -/
theorem rankSum_rows (p t : Fin 8192 → EReal) : rankSum p t = ∑ i : Fin 16, rowRank p t i := by
  unfold rankSum
  rw [sum_blocks]
  refine Finset.sum_congr rfl fun i _ => ?_
  have hrow : ∀ a : Fin 512,
      (∑ c : Fin 8192, if at512 i a < c then loss p t (at512 i a) c else 0)
        = ∑ j : Fin 16, ∑ b : Fin 512,
            if at512 i a < at512 j b then loss p t (at512 i a) (at512 j b) else 0 :=
    fun a => sum_blocks _
  rw [Finset.sum_congr rfl fun a _ => hrow a, Finset.sum_comm]
  rw [Finset.sum_congr rfl fun j _ => tile_masked p t i j]
  rw [Finset.sum_add_distrib, Finset.sum_ite_eq' Finset.univ i, if_pos (Finset.mem_univ i)]
  rfl

/-- The squared-error sum is the sum of the row blocks' squared errors. -/
theorem sqSum_rows (p t : Fin 8192 → EReal) : sqSum p t = ∑ i : Fin 16, tileSq p t i := by
  unfold sqSum
  rw [sum_blocks]
  rfl

end Cert.Spec

end
-- ==== Proof.KIValue.lean ====
/-
  What the idealized kernel's three results are, over the extended reals: row block i's output tile holds the row
  block's share of the rank sum (its squared error) at entry (0, 0) and zero elsewhere, so the host's sums over
  the two tile arrays are the rank sum and the squared-error sum, and the last host operations make the three
  results of them.
-/
import proofs.«169254_j59803124630166_1_alg».proof.Proof.Gen.KernelIdeal.Launch
import proofs.«169254_j59803124630166_1_alg».proof.Proof.KILaunch
import proofs.«169254_j59803124630166_1_alg».proof.Proof.KIPay
import proofs.«169254_j59803124630166_1_alg».proof.Proof.KIValueAcc
import proofs.«169254_j59803124630166_1_alg».proof.Proof.KIValueArr
import proofs.«169254_j59803124630166_1_alg».proof.Proof.SpecTiles
import Idealize.ShloMosaic.Lib.StableHlo.Run
import Idealize.ShloMosaic.Lib.ValueIdx
import Idealize.ShloMosaic.PureOps.Ideal.Laws
import Mathlib.Data.Fintype.BigOperators

set_option maxRecDepth 16384

noncomputable section

namespace Cert.KernelIdeal.Hand

open Cert.KernelIdeal Cert.KernelIdeal.Gen Cert.Spec
open Idealize.ShloMosaic Idealize.ShloMosaic.TcCoe Idealize.ShloMosaic.StableHlo
open Idealize.SL.Sem

variable (m : (ℓ : Loc nD τ sig) → Buf (Elt Ideal) ℓ)

/-! ## Sums over a rank-3 index set -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ValueIdx.ix3 p.1 p.2.1 p.2.2
  left_inv i := (ValueIdx.eq_ix3 i).symm
  right_inv _ := rfl

/-- … so a sum over it is the triple sum over the coordinates. -/
theorem sum_idx3 {n0 n1 n2 : Nat} (f : (⟨3, ![n0, n1, n2]⟩ : Shape).Idx → EReal) :
    ∑ i, f i = ∑ a : Fin n0, ∑ b : Fin n1, ∑ d : Fin n2, f (ValueIdx.ix3 a b d) := by
  rw [← Equiv.sum_comp (idxEquiv3 (n0 := n0) (n1 := n1) (n2 := n2)).symm f, Fintype.sum_prod_type]
  refine Finset.sum_congr rfl fun a _ => ?_
  rw [Fintype.sum_prod_type]
  rfl

/-- A tile that is r at entry (0, 0) and zero elsewhere sums to r. -/
theorem sum_corner (r : EReal) : (∑ u : Fin 8, ∑ v : Fin 128, if u.val = 0 ∧ v.val = 0 then r else 0) = r := by
  rw [Fintype.sum_eq_single (0 : Fin 8) fun u hu => Finset.sum_eq_zero fun v _ => if_neg fun h => hu (Fin.ext h.1),
    Fintype.sum_eq_single (0 : Fin 128) fun v hv => if_neg fun h => hv (Fin.ext h.2)]
  exact if_pos ⟨rfl, rfl⟩

/-! ## The two arrays' totals -/

/-- Entry (i, u, v) of the rank array: row block i's share at (u, v) = (0, 0), zero elsewhere. -/
theorem outR_ix3 (c : Dev nD) (i : Fin 16) (u : Fin 8) (v : Fin 128) :
    outR m c (ValueIdx.ix3 i u v) = if u.val = 0 ∧ v.val = 0 then rowRank (pv m c) (tv m c) i else 0 := by
  unfold outR
  refine (pay6_apply (accR m c (16 * i.val + 16)) u v).trans ?_
  rw [accR_rowEnd]

/-- Entry (i, u, v) of the squared-error array: row block i's squared error at (u, v) = (0, 0), zero elsewhere. -/
theorem outM_ix3 (c : Dev nD) (i : Fin 16) (u : Fin 8) (v : Fin 128) :
    outM m c (ValueIdx.ix3 i u v) = if u.val = 0 ∧ v.val = 0 then tileSq (pv m c) (tv m c) i else 0 := by
  unfold outM
  refine (pay7_apply (accM m c (16 * i.val + 16)) u v).trans ?_
  rw [accM_rowEnd]

/-- The rank array sums to the rank sum. -/
theorem sum_outR (c : Dev nD) : ∑ idx : S16x8x128.Idx, outR m c idx = rankSum (pv m c) (tv m c) := by
  rw [sum_idx3 (outR m c), rankSum_rows]
  refine Finset.sum_congr rfl fun i _ => ?_
  rw [Finset.sum_congr rfl fun u _ => Finset.sum_congr rfl fun v _ => outR_ix3 m c i u v]
  exact sum_corner _

/-- The squared-error array sums to the squared-error sum. -/
theorem sum_outM (c : Dev nD) : ∑ idx : S16x8x128.Idx, outM m c idx = sqSum (pv m c) (tv m c) := by
  rw [sum_idx3 (outM m c), sqSum_rows]
  refine Finset.sum_congr rfl fun i _ => ?_
  rw [Finset.sum_congr rfl fun u _ => Finset.sum_congr rfl fun v _ => outM_ix3 m c i u v]
  exact sum_corner _

/-! ## The host's sum of an array -/

/-- The host's sum over all three axes from the zero word is the sum of the array's entries. -/
theorem hostSum_total (A : FVec Ideal S16x8x128 .f32) :
    Host.reduceAdd (F := Ideal) A (constant (F := Ideal) S_ .f32 0x00000000#32) reducesTo_S16x8x128_S_d0_1_2 h_S_
      = fun _ => ∑ idx : S16x8x128.Idx, A idx := by
  funext j
  simp only [Host.reduceAdd, Ideal.hostReduceAdd_def]
  refine (Ideal.hostReduceAdd_total reducesTo_S16x8x128_S_d0_1_2 (fun b => b.elim0) A _ j).trans ?_
  show Ideal.ofBits .f32 0x00000000#32 + _ = _
  rw [Ideal.ofBits_zero_f32, zero_add]

/-! ## The host operations after the region, from any exit contents -/

/-- The second result from any exit contents: the host's sum of the squared-error array over 8192. -/
theorem tail_v3 (W : Valuation τ sig (Elt Ideal)) (A : FVec Ideal S16x8x128 .f32) (hA : W (Proc.devRef .tc main_v0_1) = A) :
    StableHlo.after hostOps1 W (Proc.devRef .tc main_v3) = fun _ => mseOf (∑ idx : S16x8x128.Idx, A idx) := by
  after_results
  rw [hA, hostSum_total]
  rfl

/-- The third result from any exit contents: the host's sum of the rank array over the number of pairs. -/
theorem tail_v4 (W : Valuation τ sig (Elt Ideal)) (A : FVec Ideal S16x8x128 .f32) (hA : W (Proc.devRef .tc main_v0_0) = A) :
    StableHlo.after hostOps1 W (Proc.devRef .tc main_v4) = fun _ => rankOf (∑ idx : S16x8x128.Idx, A idx) := by
  after_results
  rw [hA, hostSum_total]
  rfl

/-- The first result from any exit contents: the two quotients, each times one, added. -/
theorem tail_v7 (W : Valuation τ sig (Elt Ideal)) (A B : FVec Ideal S16x8x128 .f32)
    (hA : W (Proc.devRef .tc main_v0_0) = A) (hB : W (Proc.devRef .tc main_v0_1) = B) :
    StableHlo.after hostOps1 W (Proc.devRef .tc main_v7)
      = fun _ => combined (mseOf (∑ idx : S16x8x128.Idx, B idx)) (rankOf (∑ idx : S16x8x128.Idx, A idx)) := by
  after_results
  rw [hA, hB, hostSum_total, hostSum_total]
  rfl

/-! ## The region's exit contents at the two arrays -/

/-- At the region's exit the rank array holds its closed form … -/
theorem Vout_R (c : Dev nD) : Vout m c (Proc.devRef .tc main_v0_0) = outR m c := (Wout_v0_0 m c).trans (arrR_eq m c)
/-- … and the squared-error array its own. -/
theorem Vout_M (c : Dev nD) : Vout m c (Proc.devRef .tc main_v0_1) = outM m c := (Wout_v0_1 m c).trans (arrM_eq m c)

/-! ## The three results -/

theorem Vfin_v7 (c : Dev nD) : Vfin m c (Proc.devRef .tc main_v7)
    = (fun _ => res0 (vecOf (m ((c.tc : Thread nD τ).loc main_arg0))) (vecOf (m ((c.tc : Thread nD τ).loc main_arg1)))) := by
  unfold Vfin
  rw [tail_v7 (Vout m c) (outR m c) (outM m c) (Vout_R m c) (Vout_M m c), sum_outR, sum_outM]
  rfl
theorem Vfin_v3 (c : Dev nD) : Vfin m c (Proc.devRef .tc main_v3)
    = (fun _ => res1 (vecOf (m ((c.tc : Thread nD τ).loc main_arg0))) (vecOf (m ((c.tc : Thread nD τ).loc main_arg1)))) := by
  unfold Vfin
  rw [tail_v3 (Vout m c) (outM m c) (Vout_M m c), sum_outM]
  rfl
theorem Vfin_v4 (c : Dev nD) : Vfin m c (Proc.devRef .tc main_v4)
    = (fun _ => res2 (vecOf (m ((c.tc : Thread nD τ).loc main_arg0))) (vecOf (m ((c.tc : Thread nD τ).loc main_arg1)))) := by
  unfold Vfin
  rw [tail_v4 (Vout m c) (outR m c) (Vout_R m c), sum_outR]
  rfl

end Cert.KernelIdeal.Hand

end
-- ==== Proof.RefValue.lean ====
/-
  What the reference program computes, over the extended reals.

  With p, t the two length-8192 arguments, the reference forms the 8192 × 8192 tables e(r,c) = p r − p c and
  d(r,c) = t r − t c by broadcasting, one pair's loss max 0 ( β / (1 + γ·|d|) · |d| − e · sign d ) at every (r,c),
  and multiplies it by a table that is 0 where r ≥ c and 1 where r < c before it adds everything up: that sum is
  the sum of the losses of the pairs r < c.  The squared-error sum adds (p k − t k)² over k.  The three results
  are those two sums divided by 8192 and by 33550336, and 1·(first) + 1·(second).
-/
import proofs.«169254_j59803124630166_1_alg».proof.Proof.Gen.ReferenceIdeal.Run
import proofs.«169254_j59803124630166_1_alg».proof.Proof.Gen.ReferenceIdeal.Read
import proofs.«169254_j59803124630166_1_alg».proof.Proof.SpecVec
import Idealize.ShloMosaic.Lib.ValueIdx
import Idealize.ShloMosaic.Lib.ValueIdxRank1
import Idealize.ShloMosaic.Lib.IdealHost
import Idealize.ShloMosaic.Lib.StableHlo.Predicate
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

/-! ## Sums over the index sets, by coordinates -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The broadcasts: entry (r, c) of a row table reads position r, of a column table position c -/

theorem rowT_idx (r c : Fin 8192) : idx_main_v4 (idx_main_v6 (ix2 r c)) = ix1 r := by
  funext a; match a with | ⟨0, _⟩ => rfl
theorem colT_idx (r c : Fin 8192) : idx_main_v5 (idx_main_v7 (ix2 r c)) = ix1 c := by
  funext a; match a with | ⟨0, _⟩ => rfl
theorem rowP_idx (r c : Fin 8192) : idx_main_v17 (idx_main_v19 (ix2 r c)) = ix1 r := by
  funext a; match a with | ⟨0, _⟩ => rfl
theorem colP_idx (r c : Fin 8192) : idx_main_v18 (idx_main_v20 (ix2 r c)) = ix1 c := by
  funext a; match a with | ⟨0, _⟩ => rfl

/-- The target difference table at (r, c) is t r − t c. -/
theorem tdiff_at (x1 : (⟨S8192, .f32⟩ : BufTy).Contents (Elt Ideal)) (r c : Fin 8192) :
    val_main_v8 (F := Ideal) x1 (ix2 r c) = vecOf x1 r - vecOf x1 c := by
  rw [val_main_v8_apply, val_main_v6_apply, val_main_v4_apply, val_main_v7_apply, val_main_v5_apply, rowT_idx, colT_idx]
  rfl

/-- The prediction difference table at (r, c) is p r − p c. -/
theorem pdiff_at (x0 : (⟨S8192, .f32⟩ : BufTy).Contents (Elt Ideal)) (r c : Fin 8192) :
    val_main_v21 (F := Ideal) x0 (ix2 r c) = vecOf x0 r - vecOf x0 c := by
  rw [val_main_v21_apply, val_main_v19_apply, val_main_v17_apply, val_main_v20_apply, val_main_v18_apply, rowP_idx, colP_idx]
  rfl

/-! ## The constant tables -/

theorem gamma_at (i : S8192x8192.Idx) : val_main_v10 (F := Ideal) i = cGamma := by
  rw [val_main_v10_apply, val_main_cst_1_apply]; rfl
theorem one_at (i : S8192x8192.Idx) : val_main_v12 (F := Ideal) i = cOne := by
  rw [val_main_v12_apply, val_main_cst_2_apply]; rfl
theorem beta_at (i : S8192x8192.Idx) : val_main_v14 (F := Ideal) i = cBeta := by
  rw [val_main_v14_apply, val_main_cst_3_apply]; rfl
theorem zero_at (i : S8192x8192.Idx) : val_main_v25 (F := Ideal) i = cZero := by
  rw [val_main_v25_apply, val_main_cst_4_apply]; rfl

/-! ## One pair's loss -/

/-- The loss table at (r, c) is the loss of the pair (r, c). -/
theorem loss_at (x0 x1 : (⟨S8192, .f32⟩ : BufTy).Contents (Elt Ideal)) (r c : Fin 8192) :
    val_main_v26 (F := Ideal) x0 x1 (ix2 r c) = loss (vecOf x0) (vecOf x1) r c := by
  rw [val_main_v26_apply, val_main_v24_apply, val_main_v16_apply, val_main_v15_apply, val_main_v13_apply,
    val_main_v11_apply, val_main_v23_apply, val_main_v22_apply, val_main_v9_apply, zero_at, beta_at, one_at, gamma_at,
    tdiff_at, pdiff_at]
  rfl

/-! ## The triangular table -/

/-- A position below 8192, as a 32-bit word, reads as itself and is non-negative. -/
theorem word_toNat (k : Fin 8192) : (BitVec.ofNat 32 k.val).toNat = k.val := by
  rw [BitVec.toNat_ofNat]; exact Nat.mod_eq_of_lt (by have := k.isLt; omega)

/-- The word compare "row ≥ column" is set exactly when c ≤ r. -/
theorem sge_word (r c : Fin 8192) :
    IntOp.cmpi .sge (IntOp.addi (BitVec.ofNat 32 r.val) 0#32) (BitVec.ofNat 32 c.val) = 1#1 ↔ c.val ≤ r.val := by
  have e : IntOp.addi (BitVec.ofNat 32 r.val) 0#32 = BitVec.ofNat 32 r.val := BitVec.add_zero _
  rw [e, Predicate.sge_iff_toNat (by rw [word_toNat]; have := r.isLt; omega) (by rw [word_toNat]; have := c.isLt; omega),
    word_toNat, word_toNat]

/-- The triangular table at (r, c) is 1 for r < c and 0 otherwise. -/
theorem mask_at (r c : Fin 8192) :
    val_main_v28 (F := Ideal) (ix2 r c) = if r < c then (1 : EReal) else 0 := by
  rw [val_main_v28_apply, val_main_call0_v4_apply, val_main_call0_v2_apply, val_main_call0_v0_apply,
    val_main_call0_v1_apply, val_main_call0_c_apply, val_main_call0_v3_apply, val_main_call0_v5_apply,
    val_main_call0_cst_apply, val_main_v27_apply, val_main_cst_5_apply]
  show Scalar.select (IntOp.cmpi .sge (IntOp.addi (BitVec.ofNat 32 r.val) 0#32) (BitVec.ofNat 32 c.val))
    (Ideal.ofBits .f32 0x00000000#32) (Ideal.ofBits .f32 0x3F800000#32) = _
  by_cases h : r < c
  · have hb : IntOp.cmpi .sge (IntOp.addi (BitVec.ofNat 32 r.val) 0#32) (BitVec.ofNat 32 c.val) = 0#1 :=
      eq_zero_of_ne_one fun e => by have := (sge_word r c).mp e; have h' : r.val < c.val := h; omega
    rw [hb, select_zero, if_pos h, Ideal.ofBits_one_f32]
  · have hb : IntOp.cmpi .sge (IntOp.addi (BitVec.ofNat 32 r.val) 0#32) (BitVec.ofNat 32 c.val) = 1#1 :=
      (sge_word r c).mpr (by have h' : ¬ r.val < c.val := h; omega)
    rw [hb, select_one, if_neg h, Ideal.ofBits_zero_f32]

/-! ## The two sums -/

/-- The masked loss table at (r, c) is the loss for r < c and 0 otherwise. -/
theorem term_at (x0 x1 : (⟨S8192, .f32⟩ : BufTy).Contents (Elt Ideal)) (r c : Fin 8192) :
    val_main_v29 (F := Ideal) x0 x1 (ix2 r c) = if r < c then loss (vecOf x0) (vecOf x1) r c else 0 := by
  rw [val_main_v29_apply, loss_at, mask_at, Ideal.mulf_def]
  by_cases h : r < c
  · rw [if_pos h, if_pos h, mul_one]
  · rw [if_neg h, if_neg h, mul_zero]

/-- The reference's two-axis sum is the rank sum. -/
theorem rank_at (x0 x1 : (⟨S8192, .f32⟩ : BufTy).Contents (Elt Ideal)) (i : S_.Idx) :
    val_main_v30 (F := Ideal) x0 x1 i = rankSum (vecOf x0) (vecOf x1) := by
  rw [val_main_v30_apply, val_main_cst_6_apply, sum_idx2, Ideal.ofBits_def, Ideal.ofBits_zero_f32, zero_add]
  exact Finset.sum_congr rfl fun r _ => Finset.sum_congr rfl fun c _ => term_at x0 x1 r c

/-- The reference's one-axis sum is the squared-error sum. -/
theorem sq_at (x0 x1 : (⟨S8192, .f32⟩ : BufTy).Contents (Elt Ideal)) (i : S_.Idx) :
    val_main_v2 (F := Ideal) x0 x1 i = sqSum (vecOf x0) (vecOf x1) := by
  rw [val_main_v2_apply, val_main_cst_apply, sum_idx1, Ideal.ofBits_def, Ideal.ofBits_zero_f32, zero_add]
  exact Finset.sum_congr rfl fun k _ => by rw [val_main_v1_apply, val_main_v0_apply]; rfl

/-! ## The three results -/

theorem v3_spec (x0 x1 : (⟨S8192, .f32⟩ : BufTy).Contents (Elt Ideal)) :
    val_main_v3 (F := Ideal) x0 x1 = fun _ => res1 (vecOf x0) (vecOf x1) := by
  funext i
  rw [val_main_v3_apply, sq_at, val_main_cst_0_apply]
  rfl

theorem v31_spec (x0 x1 : (⟨S8192, .f32⟩ : BufTy).Contents (Elt Ideal)) :
    val_main_v31 (F := Ideal) x0 x1 = fun _ => res2 (vecOf x0) (vecOf x1) := by
  funext i
  rw [val_main_v31_apply, rank_at, val_main_cst_7_apply]
  rfl

theorem v34_spec (x0 x1 : (⟨S8192, .f32⟩ : BufTy).Contents (Elt Ideal)) :
    val_main_v34 (F := Ideal) x0 x1 = fun _ => res0 (vecOf x0) (vecOf x1) := by
  funext i
  rw [val_main_v34_apply, val_main_v32_apply, val_main_v33_apply, val_main_cst_8_apply, val_main_cst_9_apply,
    v3_spec, v31_spec]
  rfl

/-! ## The run -/

/-- Every weakly fair execution of the reference ends with its three results at the specification's values of the
    two arguments' launch contents, and the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34) = (fun _ => Cert.Spec.res0 (Cert.Spec.vecOf (m ((c.tc : Thread nD τ).loc main_arg0))) (Cert.Spec.vecOf (m ((c.tc : Thread nD τ).loc main_arg1))))
      ∧ r.2.mem ((c.tc : Thread nD τ).loc main_v3) = (fun _ => Cert.Spec.res1 (Cert.Spec.vecOf (m ((c.tc : Thread nD τ).loc main_arg0))) (Cert.Spec.vecOf (m ((c.tc : Thread nD τ).loc main_arg1))))
      ∧ r.2.mem ((c.tc : Thread nD τ).loc main_v31) = (fun _ => Cert.Spec.res2 (Cert.Spec.vecOf (m ((c.tc : Thread nD τ).loc main_arg0))) (Cert.Spec.vecOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c).1.trans ((val_main_v34_eq _ _).trans (v34_spec _ _)),
       (h c).2.1.trans ((val_main_v3_eq _ _).trans (v3_spec _ _)),
       (h c).2.2.1.trans ((val_main_v31_eq _ _).trans (v31_spec _ _)),
       (h c).2.2.2.1, (h c).2.2.2.2⟩)
    (Cert.ReferenceIdeal.Value.run (F := Ideal) m ρ)

end Cert.ReferenceIdeal.RefValue

end
-- ==== Proof.lean ====
/-
  Three frames, the idealization's ledger and the value claim of a pairwise ranking loss with a mean squared error.

  With p, t the two inputs of length 8192, both idealized programs end with sq / 8192, rank / 33550336 and their sum,
  where sq = Σ_k (p k − t k)² and rank = Σ_{r < c} max 0 (β/(1 + γ|t r − t c|)·|t r − t c| − (p r − p c)·sign (t r − t c)).
  The reference forms the whole 8192 × 8192 array of pair losses, multiplies it by the strict upper triangle of ones and
  sums it.  The kernel walks a 16 × 16 grid of 512 × 512 tiles row block by row block: it skips the tiles below the
  diagonal, masks the diagonal tile locally, takes the tiles above it whole, adds each tile's sum into a one-word
  accumulator, and at the row block's last point lays the accumulator at entry (0, 0) of the row block's output tile;
  the host then sums the sixteen tiles.  On the extended reals a product with 1 is the factor and a product with 0
  is 0, and finite sums may be regrouped freely, so the two are one number; no finiteness of the inputs is used.
  The word-level kernel's sign idiom (1.0 with the sign bit of the target difference) is the one rewrite of the
  idealization, met twice; its statement is the rule's own.
-/
import proofs.«169254_j59803124630166_1_alg».proof.Defs
import proofs.«169254_j59803124630166_1_alg».proof.Proof.Gen.Kernel
import proofs.«169254_j59803124630166_1_alg».proof.Proof.Gen.KernelIdeal
import proofs.«169254_j59803124630166_1_alg».proof.Proof.Gen.ReferenceIdeal
import proofs.«169254_j59803124630166_1_alg».proof.Proof.Gen.Pre_finite_inputs
import proofs.«169254_j59803124630166_1_alg».proof.Proof.Gen.ReferenceIdeal.Run
import proofs.«169254_j59803124630166_1_alg».proof.Proof.Gen.ReferenceIdeal.Read
import proofs.«169254_j59803124630166_1_alg».proof.Proof.KLaunch
import proofs.«169254_j59803124630166_1_alg».proof.Proof.KIValue
import proofs.«169254_j59803124630166_1_alg».proof.Proof.RefValue
import Idealize.ShloMosaic.PureOps.IdealRules

noncomputable section

namespace Cert.Proof

open Idealize.ShloMosaic Idealize.ShloMosaic.TcCoe Idealize.SL.Sem

/-- The word-level kernel runs to its end without a fault and leaves its two arguments as they were. -/
theorem frame_k : Cert.frame_Kernel := fun m ρ _ =>
  (θ_run Cert.Kernel.defs _ _).mono (fun _ h c => ⟨(h c).2.2.2.1, (h c).2.2.2.2⟩) (Cert.Kernel.Hand.run_main (F := Bits) m ρ)

/-- So does the idealized kernel. -/
theorem frame_ki : Cert.frame_KernelIdeal := fun m ρ _ =>
  (θ_run Cert.KernelIdeal.defs _ _).mono (fun _ h c => ⟨(h c).2.2.2.1, (h c).2.2.2.2⟩) (Cert.KernelIdeal.Hand.run_main (F := Ideal) m ρ)

/-- And the reference: its run with the results dropped. -/
theorem frame_ri : Cert.frame_ReferenceIdeal := fun m ρ _ =>
  (θ_run Cert.ReferenceIdeal.defs _ _).mono (fun _ h c => ⟨(h c).2.2.2.1, (h c).2.2.2.2⟩) (Cert.ReferenceIdeal.RefValue.run_spec m ρ)

/-- The ledger's two entries are one site of the sign idiom, printed in both tile branches: 1.0 carrying the
    target difference's sign bit is −1 or 1 by the sign. -/
theorem preserves : Cert.preserves_Kernel_KernelIdeal :=
  ⟨IdealRules.sign_bit.statement Cert.KernelIdeal.S512x512 .f32, IdealRules.sign_bit.statement Cert.KernelIdeal.S512x512 .f32⟩

/-- From memories that agree on the two arguments both idealized programs end with the same three numbers. -/
theorem algebraic : Cert.algebraic_KernelIdeal_ReferenceIdeal := by
  intro m ρ m' ρ' _ hagree
  refine ⟨fun c => fun _ => Cert.Spec.res0 (Cert.Spec.vecOf (m ((c.tc : Thread Cert.KernelIdeal.nD Cert.KernelIdeal.τ).loc Cert.KernelIdeal.main_arg0))) (Cert.Spec.vecOf (m ((c.tc : Thread Cert.KernelIdeal.nD Cert.KernelIdeal.τ).loc Cert.KernelIdeal.main_arg1))),
    fun c => fun _ => Cert.Spec.res1 (Cert.Spec.vecOf (m ((c.tc : Thread Cert.KernelIdeal.nD Cert.KernelIdeal.τ).loc Cert.KernelIdeal.main_arg0))) (Cert.Spec.vecOf (m ((c.tc : Thread Cert.KernelIdeal.nD Cert.KernelIdeal.τ).loc Cert.KernelIdeal.main_arg1))),
    fun c => fun _ => Cert.Spec.res2 (Cert.Spec.vecOf (m ((c.tc : Thread Cert.KernelIdeal.nD Cert.KernelIdeal.τ).loc Cert.KernelIdeal.main_arg0))) (Cert.Spec.vecOf (m ((c.tc : Thread Cert.KernelIdeal.nD Cert.KernelIdeal.τ).loc Cert.KernelIdeal.main_arg1))),
    ?_, ?_⟩
  · refine (θ_run Cert.KernelIdeal.defs _ _).mono (fun _ h c => ?_) (Cert.KernelIdeal.Hand.run_main (F := Ideal) m ρ)
    exact ⟨(h c).1.trans (Cert.KernelIdeal.Hand.Vfin_v7 m c), (h c).2.1.trans (Cert.KernelIdeal.Hand.Vfin_v3 m c),
      (h c).2.2.1.trans (Cert.KernelIdeal.Hand.Vfin_v4 m c), (h c).2.2.2.1, (h c).2.2.2.2⟩
  · refine (θ_run Cert.ReferenceIdeal.defs _ _).mono (fun _ h c => ?_) (Cert.ReferenceIdeal.RefValue.run_spec m' ρ')
    have h' := h c
    refine ⟨?_, ?_, ?_, h'.2.2.2.1, h'.2.2.2.2⟩
    · rw [h'.1, (hagree c).1, (hagree c).2]; rfl
    · rw [h'.2.1, (hagree c).1, (hagree c).2]; rfl
    · rw [h'.2.2.1, (hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
